-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x64x2048 : Shape := ⟨4, ![4, 16, 64, 2048]⟩
abbrev S_ : Shape := ⟨0, ![]⟩

class Facts : Prop where
  bcast_S_S4x16x64x2048 : S_.BroadcastsInDim S4x16x64x2048 (![] : Fin 0 → Fin S4x16x64x2048.rank)
  reducesTo_S4x16x64x2048_S_d0_1_2_3 : S4x16x64x2048.ReducesTo [0, 1, 2, 3] S_
  h_S_ : 0 < S_.numel

variable [Facts]

def fn {F : FTy → Type} [FloatOps F] (main_arg0 : FVec F S4x16x64x2048 .f32) (main_arg1 : FVec F S4x16x64x2048 .f32) (main_arg2 : FVec F S4x16x64x2048 .f32) : IVec S_ 1 :=
  let main_v0 : FVec F S4x16x64x2048 .f32 := Host.absf main_arg0
  let main_cst : FVec F S_ .f32 := constant S_ .f32 0x7F800000#32
  let main_v1 : FVec F S4x16x64x2048 .f32 := broadcastInDim S4x16x64x2048 ![] bcast_S_S4x16x64x2048 main_cst
  let main_v2 : IVec S4x16x64x2048 1 := cmpf .olt main_v0 main_v1
  let main_c : IVec S_ 1 := constantI S_ 1 1#1
  let main_v3 : IVec S_ 1 := (fun x v => Host.reduce IntOp.andi x v reducesTo_S4x16x64x2048_S_d0_1_2_3 h_S_) main_v2 main_c
  let main_v4 : FVec F S4x16x64x2048 .f32 := Host.absf main_arg1
  let main_cst_0 : FVec F S_ .f32 := constant S_ .f32 0x7F800000#32
  let main_v5 : FVec F S4x16x64x2048 .f32 := broadcastInDim S4x16x64x2048 ![] bcast_S_S4x16x64x2048 main_cst_0
  let main_v6 : IVec S4x16x64x2048 1 := cmpf .olt main_v4 main_v5
  let main_c_1 : IVec S_ 1 := constantI S_ 1 1#1
  let main_v7 : IVec S_ 1 := (fun x v => Host.reduce IntOp.andi x v reducesTo_S4x16x64x2048_S_d0_1_2_3 h_S_) main_v6 main_c_1
  let main_v8 : IVec S_ 1 := andi main_v3 main_v7
  let main_v9 : FVec F S4x16x64x2048 .f32 := Host.absf main_arg2
  let main_cst_2 : FVec F S_ .f32 := constant S_ .f32 0x7F800000#32
  let main_v10 : FVec F S4x16x64x2048 .f32 := broadcastInDim S4x16x64x2048 ![] bcast_S_S4x16x64x2048 main_cst_2
  let main_v11 : IVec S4x16x64x2048 1 := cmpf .olt main_v9 main_v10
  let main_c_3 : IVec S_ 1 := constantI S_ 1 1#1
  let main_v12 : IVec S_ 1 := (fun x v => Host.reduce IntOp.andi x v reducesTo_S4x16x64x2048_S_d0_1_2_3 h_S_) main_v11 main_c_3
  let main_v13 : IVec S_ 1 := andi main_v8 main_v12
  main_v13
-- ==== Kernel.lean ====
abbrev S4x16x64x2048 : Shape := ⟨4, ![4, 16, 64, 2048]⟩
abbrev S64x64x2048 : Shape := ⟨3, ![64, 64, 2048]⟩
abbrev S1x64x2048 : Shape := ⟨3, ![1, 64, 2048]⟩
abbrev S1x64x1024 : Shape := ⟨3, ![1, 64, 1024]⟩
abbrev S1x2048 : Shape := ⟨2, ![1, 2048]⟩
abbrev S64x2048 : Shape := ⟨2, ![64, 2048]⟩
abbrev S64x1024 : Shape := ⟨2, ![64, 1024]⟩
abbrev S1024x2048 : Shape := ⟨2, ![1024, 2048]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S4x16x64x2048, .f32⟩
  | .hbm, ⟨1, _⟩ => ⟨S4x16x64x2048, .f32⟩
  | .hbm, ⟨2, _⟩ => ⟨S4x16x64x2048, .f32⟩
  | .hbm, ⟨3, _⟩ => ⟨S64x64x2048, .f32⟩
  | .hbm, ⟨4, _⟩ => ⟨S64x64x2048, .f32⟩
  | .hbm, ⟨5, _⟩ => ⟨S64x64x2048, .f32⟩
  | .hbm, ⟨6, _⟩ => ⟨S64x64x2048, .f32⟩
  | .hbm, ⟨7, _⟩ => ⟨S4x16x64x2048, .f32⟩
  | .local _ .vmem, ⟨0, _⟩ => ⟨S1x64x2048, .f32⟩
  | .local _ .vmem, ⟨1, _⟩ => ⟨S1x64x2048, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .vmem, ⟨6, _⟩ => ⟨S1x64x2048, .f32⟩
  | .local _ .vmem, ⟨7, _⟩ => ⟨S1x64x2048, .f32⟩
  | .local _ .vmem, ⟨8, _⟩ => ⟨S1x2048, .f32⟩
  | .local _ .vmem, ⟨9, _⟩ => ⟨S1x2048, .f32⟩
  | .local _ .vmem, ⟨10, _⟩ => ⟨S64x2048, .f32⟩
  | .local _ .vmem, ⟨11, _⟩ => ⟨S64x2048, .bf16⟩
  | _, _ => ⟨S4x16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def k0_cond4 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_12 : BitVec 32 := 0#32
  let v19 : BitVec 1 := Scalar.cmpi .ne v18 c0_i32_12
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x16x64x2048_S64x64x2048 : S4x16x64x2048.ShapeCasts S64x64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  packedbf16_S64x2048_S64x2048_0_0 : (Rect.unit (s := S64x2048) ![0, 0] S64x2048.size inb_S64x2048_S64x2048_0_0).PackedRows (EltTy.packing .bf16)
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  reduces_S1024x2048_S2048 : S1024x2048.Reduces [0] S2048
  shapeCasts_S2048_S1x2048 : S2048.ShapeCasts S1x2048
  broadcasts_S1x2048_S1024x2048 : S1x2048.Broadcasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  shapeCasts_S64x2048_S1x64x2048 : S64x2048.ShapeCasts S1x64x2048
  shapeCasts_S64x64x2048_S4x16x64x2048 : S64x64x2048.ShapeCasts S4x16x64x2048
  dot_S64x1024_S64x2048_S1024x2048_0_0_1_1_n_n_wf : DotDims.WF S64x1024 S64x2048 S1024x2048 [0] [0] [1] [1] [] []
  dot_S64x1024_S1024x2048_S64x2048_1_0_0_1_n_n_wf : DotDims.WF S64x1024 S1024x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S64x64x2048.size a
  hwx0_0 : ∀ i : grid0.Coords, EltTy.bits .f32 = 32 ∨ (Rect.block (s := S64x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S64x64x2048.size a
  hwx0_1 : ∀ i : grid0.Coords, EltTy.bits .f32 = 32 ∨ (Rect.block (s := S64x64x2048) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S64x64x2048.size a
  hwx0_2 : ∀ i : grid0.Coords, EltTy.bits .f32 = 32 ∨ (Rect.block (s := S64x64x2048) S1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x2048.size a ≤ S64x64x2048.size a
  hwx0_3 : ∀ i : grid0.Coords, EltTy.bits .f32 = 32 ∨ (Rect.block (s := S64x64x2048) S1x64x2048.size (cc0_transform_3 i) (hinb0_3 i)).WholeWords (EltTy.packing .f32)

variable [Facts₀]

def dot_S64x1024_S64x2048_S1024x2048_0_0_1_1_n_n : DotDims S64x1024 S64x2048 S1024x2048 where
  lhsContracting := [0]
  rhsContracting := [0]
  lhsNonContracting := [1]
  rhsNonContracting := [1]
  lhsBatch := []
  rhsBatch := []
  wf := dot_S64x1024_S64x2048_S1024x2048_0_0_1_1_n_n_wf
def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf

abbrev win0_0 : Pipeline.Window sig grid0 :=
  Pipeline.Window.ofSpec (Memref.whole main_v0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x16x64x2048 : Shape := ⟨4, ![4, 16, 64, 2048]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x64x2048, .f32⟩
  | .hbm, ⟨1, _⟩ => ⟨S4x16x64x2048, .f32⟩
  | .hbm, ⟨2, _⟩ => ⟨S4x16x64x2048, .f32⟩
  | .hbm, ⟨3, _⟩ => ⟨S_, .f32⟩
  | .hbm, ⟨4, _⟩ => ⟨S4x16x64x2048, .f32⟩
  | .hbm, ⟨5, _⟩ => ⟨S4x16x64x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x64x2048, .f32⟩
  | _, _ => ⟨S4x16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x64x2048 : S_.BroadcastsInDim S4x16x64x2048 (![] : Fin 0 → Fin S4x16x64x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x64x2048_S4x16x64x2048_S4x16x2048x2048_2_2_3_3_01_01_wf : DotDims.WF S4x16x64x2048 S4x16x64x2048 S4x16x2048x2048 [2] [2] [3] [3] [0, 1] [0, 1]
  dot_S4x16x64x2048_S4x16x2048x2048_S4x16x64x2048_3_3_2_2_01_01_wf : DotDims.WF S4x16x64x2048 S4x16x2048x2048 S4x16x64x2048 [3] [3] [2] [2] [0, 1] [0, 1]

variable [Facts₀]

def dot_S4x16x64x2048_S4x16x64x2048_S4x16x2048x2048_2_2_3_3_01_01 : DotDims S4x16x64x2048 S4x16x64x2048 S4x16x2048x2048 where
  lhsContracting := [2]
  rhsContracting := [2]
  lhsNonContracting := [3]
  rhsNonContracting := [3]
  lhsBatch := [0, 1]
  rhsBatch := [0, 1]
  wf := dot_S4x16x64x2048_S4x16x64x2048_S4x16x2048x2048_2_2_3_3_01_01_wf
def dot_S4x16x64x2048_S4x16x2048x2048_S4x16x64x2048_3_3_2_2_01_01 : DotDims S4x16x64x2048 S4x16x2048x2048 S4x16x64x2048 where
  lhsContracting := [3]
  rhsContracting := [3]
  lhsNonContracting := [2]
  rhsNonContracting := [2]
  lhsBatch := [0, 1]
  rhsBatch := [0, 1]
  wf := dot_S4x16x64x2048_S4x16x2048x2048_S4x16x64x2048_3_3_2_2_01_01_wf

class Facts : Prop extends Facts₀ where

variable [Facts]
-- ==== Proof.KerPieces.lean ====
/-
  What each control case of the attention body leaves behind, as pure terms of what it read.

  The body runs in two cases. At a (batch, head) pair's first key tile it scales the query block and keeps it,
  and stores that tile's column maxima, the column sums of the shifted exponentials, and the product of the
  value tile with those exponentials. At the second key tile it reads the three running quantities back,
  stores their updated values, and stores the output block, the updated product divided column by column by
  the updated sums. Each stored buffer is covered by a single whole-buffer store, so reading the stores back
  gives the stored term itself; a buffer read after it was stored in the same run gives the term just stored.
-/
import proofs.«430736_j35820027248841_3_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S1x64x2048 .f32) (harg2 : arg2.IsWhole) (arg3 : Memref sig .tc .vmem S1x64x1024 .f32) (harg3 : arg3.IsWhole)
  (arg4 : Memref sig .tc .vmem S1x64x1024 .f32) (harg4 : arg4.IsWhole) (arg5 : Memref sig .tc .vmem S1x64x2048 .f32) (harg5 : arg5.IsWhole)
  (arg6 : Memref sig .tc .vmem S1x2048 .f32) (harg6 : arg6.IsWhole) (arg7 : Memref sig .tc .vmem S1x2048 .f32) (harg7 : arg7.IsWhole)
  (arg8 : Memref sig .tc .vmem S64x2048 .f32) (harg8 : arg8.IsWhole) (arg9 : Memref sig .tc .vmem S64x2048 .bf16) (harg9 : arg9.IsWhole)

section FirstTile
variable (hc0 : cond0_0 i) (hc1 : cond0_1 i) (hc2 : ¬cond0_2 i) (hc3 : ¬cond0_3 i)
  (x0 : Vec F S1x64x2048 .f32) (x1 : Vec F S1x64x1024 .f32) (x2 : Vec F S1x64x1024 .f32)

/-- The scaled query block the first tile keeps. -/
abbrev qbOf (x0 : Vec F S1x64x2048 .f32) : Vec F S64x2048 .bf16 := k0_pay1 x0

theorem first_max : sout0_A_0 c i arg2 harg2 arg3 harg3 arg4 harg4 arg5 harg5 arg6 harg6 arg7 harg7 arg8 harg8 arg9 harg9 hc0 hc1 hc2 hc3 x0 x1 x2 = k0_pay8 x1 (qbOf x0) := by
  unfold sout0_A_0
  rw [View.read_writes_eq_canon _ _ _ (scover0_A_0 c i arg2 harg2 arg3 harg3 arg4 harg4 arg5 harg5 arg6 harg6 arg7 harg7 arg8 harg8 arg9 harg9 hc0 hc1 hc2 hc3 x0 x1 x2)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S1x64x1024) hz3, View.ld_unit_zero (S := S1x64x2048) hz3, View.ld_unit_zero (S := S1x2048) hz2, View.ld_unit_zero (S := S64x2048) hz2,
    View.readCov_unit_zero (S := S64x2048) _ hz2, View.readCov_unit_zero (S := S1x2048) _ hz2]

theorem first_sum : sout0_A_1 c i arg2 harg2 arg3 harg3 arg4 harg4 arg5 harg5 arg6 harg6 arg7 harg7 arg8 harg8 arg9 harg9 hc0 hc1 hc2 hc3 x0 x1 x2 = k0_pay6 x1 (qbOf x0) := by
  unfold sout0_A_1
  rw [View.read_writes_eq_canon _ _ _ (scover0_A_1 c i arg2 harg2 arg3 harg3 arg4 harg4 arg5 harg5 arg6 harg6 arg7 harg7 arg8 harg8 arg9 harg9 hc0 hc1 hc2 hc3 x0 x1 x2)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S1x64x1024) hz3, View.ld_unit_zero (S := S1x64x2048) hz3, View.ld_unit_zero (S := S1x2048) hz2, View.ld_unit_zero (S := S64x2048) hz2,
    View.readCov_unit_zero (S := S64x2048) _ hz2, View.readCov_unit_zero (S := S1x2048) _ hz2]

theorem first_acc : sout0_A_2 c i arg2 harg2 arg3 harg3 arg4 harg4 arg5 harg5 arg6 harg6 arg7 harg7 arg8 harg8 arg9 harg9 hc0 hc1 hc2 hc3 x0 x1 x2 = k0_pay7 x1 x2 (qbOf x0) := by
  unfold sout0_A_2
  rw [View.read_writes_eq_canon _ _ _ (scover0_A_2 c i arg2 harg2 arg3 harg3 arg4 harg4 arg5 harg5 arg6 harg6 arg7 harg7 arg8 harg8 arg9 harg9 hc0 hc1 hc2 hc3 x0 x1 x2)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S1x64x1024) hz3, View.ld_unit_zero (S := S1x64x2048) hz3, View.ld_unit_zero (S := S1x2048) hz2, View.ld_unit_zero (S := S64x2048) hz2,
    View.readCov_unit_zero (S := S64x2048) _ hz2, View.readCov_unit_zero (S := S1x2048) _ hz2]

theorem first_qb : sout0_A_3 c i arg2 harg2 arg3 harg3 arg4 harg4 arg5 harg5 arg6 harg6 arg7 harg7 arg8 harg8 arg9 harg9 hc0 hc1 hc2 hc3 x0 x1 x2 = qbOf x0 := by
  unfold sout0_A_3
  rw [View.read_writes_eq_canon _ _ _ (scover0_A_3 c i arg2 harg2 arg3 harg3 arg4 harg4 arg5 harg5 arg6 harg6 arg7 harg7 arg8 harg8 arg9 harg9 hc0 hc1 hc2 hc3 x0 x1 x2)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S1x64x1024) hz3, View.ld_unit_zero (S := S1x64x2048) hz3, View.ld_unit_zero (S := S1x2048) hz2, View.ld_unit_zero (S := S64x2048) hz2,
    View.readCov_unit_zero (S := S64x2048) _ hz2, View.readCov_unit_zero (S := S1x2048) _ hz2]

end FirstTile

section SecondTile
variable (hc0 : ¬cond0_0 i) (hc1 : ¬cond0_1 i) (hc2 : cond0_2 i) (hc3 : cond0_3 i)
  (x0 : Vec F S1x64x2048 .f32) (x1 : Vec F S1x64x1024 .f32) (x2 : Vec F S1x64x1024 .f32)
  (xs0 : Vec F S1x2048 .f32) (xs1 : Vec F S1x2048 .f32) (xs2 : Vec F S64x2048 .f32) (xs3 : Vec F S64x2048 .bf16)

theorem second_max : sout0_B_0 c i arg2 harg2 arg3 harg3 arg4 harg4 arg5 harg5 arg6 harg6 arg7 harg7 arg8 harg8 arg9 harg9 hc0 hc1 hc2 hc3 x0 x1 x2 xs0 xs1 xs2 xs3 = k0_pay14 x1 xs3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 hc2 hc3 x0 x1 x2 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S1x64x1024) hz3, View.ld_unit_zero (S := S1x64x2048) hz3, View.ld_unit_zero (S := S1x2048) hz2, View.ld_unit_zero (S := S64x2048) hz2,
    View.readCov_unit_zero (S := S64x2048) _ hz2, View.readCov_unit_zero (S := S1x2048) _ hz2]

theorem second_sum : sout0_B_1 c i arg2 harg2 arg3 harg3 arg4 harg4 arg5 harg5 arg6 harg6 arg7 harg7 arg8 harg8 arg9 harg9 hc0 hc1 hc2 hc3 x0 x1 x2 xs0 xs1 xs2 xs3 = k0_pay12 x1 xs3 xs0 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 hc2 hc3 x0 x1 x2 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S1x64x1024) hz3, View.ld_unit_zero (S := S1x64x2048) hz3, View.ld_unit_zero (S := S1x2048) hz2, View.ld_unit_zero (S := S64x2048) hz2,
    View.readCov_unit_zero (S := S64x2048) _ hz2, View.readCov_unit_zero (S := S1x2048) _ hz2]

theorem second_acc : sout0_B_2 c i arg2 harg2 arg3 harg3 arg4 harg4 arg5 harg5 arg6 harg6 arg7 harg7 arg8 harg8 arg9 harg9 hc0 hc1 hc2 hc3 x0 x1 x2 xs0 xs1 xs2 xs3 = k0_pay13 x1 x2 xs3 xs0 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 hc2 hc3 x0 x1 x2 xs0 xs1 xs2 xs3)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread,
    View.ld_unit_zero (S := S1x64x1024) hz3, View.ld_unit_zero (S := S1x64x2048) hz3, View.ld_unit_zero (S := S1x2048) hz2, View.ld_unit_zero (S := S64x2048) hz2,
    View.readCov_unit_zero (S := S64x2048) _ hz2, View.readCov_unit_zero (S := S1x2048) _ hz2]

theorem second_qb : sout0_B_3 c i arg2 harg2 arg3 harg3 arg4 harg4 arg5 harg5 arg6 harg6 arg7 harg7 arg8 harg8 arg9 harg9 hc0 hc1 hc2 hc3 x0 x1 x2 xs0 xs1 xs2 xs3 = xs3 := rfl

theorem second_out : out0_B_3 c i arg2 harg2 arg3 harg3 arg4 harg4 arg5 harg5 arg6 harg6 arg7 harg7 arg8 harg8 arg9 harg9 hc0 hc1 hc2 hc3 x0 x1 x2 xs0 xs1 xs2 xs3 = k0_pay15 (k0_pay13 x1 x2 xs3 xs0 xs0 xs2) (k0_pay12 x1 xs3 xs0 xs0 xs1) := by
  unfold out0_B_3
  rw [View.read_writes_eq_canon _ _ _ (cover0_B_3 c i arg2 harg2 arg3 harg3 arg4 harg4 arg5 harg5 arg6 harg6 arg7 harg7 arg8 harg8 arg9 harg9 hc0 hc1 hc2 hc3 x0 x1 x2 xs0 xs1 xs2 xs3)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread,
    View.ld_unit_zero (S := S1x64x1024) hz3, View.ld_unit_zero (S := S1x64x2048) hz3, View.ld_unit_zero (S := S1x2048) hz2, View.ld_unit_zero (S := S64x2048) hz2,
    View.readCov_unit_zero (S := S64x2048) _ hz2, View.readCov_unit_zero (S := S1x2048) _ hz2]

end SecondTile

end Cert.KernelIdeal.Pieces

end
-- ==== Proof.Softmax.lean ====
/-
  Softmax-weighted averages on real data, read on the extended reals.

  For real scores `s j` and real values `v j` over a finite index set, the softmax-weighted average is
  `(∑ v j · e^{s j}) / (∑ e^{s j})`. It does not change when every score is shifted by one real number,
  because numerator and denominator both pick up the same positive factor. Two computations of it are
  read here on the extended reals, where every quantity involved is a real number:

  * the stable form: shift by a real `M`, exponentiate, divide each weight by the sum of the weights,
    then take the weighted sum of the values (`ref_form`);
  * the two-tile online form: the first tile is shifted by `m0`, the second by `m1`; the first tile's
    partial sums are rescaled by `e^{m0 - m1}`, which turns its shift into `m1` as well, and the quotient
    of the two accumulated sums is taken at the end (`ker_form`).

  Neither statement asks that a shift be the maximum of the scores: any real shift gives the same average.
-/
import Idealize.ShloMosaic.PureOps.Ideal
import Mathlib.Analysis.SpecialFunctions.Exp
import Mathlib.Data.EReal.Basic
import Mathlib.Data.EReal.Operations
import Mathlib.Data.EReal.Inv
import Mathlib.Algebra.BigOperators.Group.Finset.Basic
import Mathlib.Algebra.BigOperators.Fin
import Mathlib.Data.Fintype.Sum

noncomputable section

namespace Cert.Attn

open Idealize.ShloMosaic
open scoped BigOperators

/-- A finite sum of real numbers, taken on the extended reals, is the real sum. -/
theorem coe_sum {ι : Type} (S : Finset ι) (f : ι → ℝ) :
    (∑ j ∈ S, ((f j : ℝ) : EReal)) = ((∑ j ∈ S, f j : ℝ) : EReal) := by
  classical
  induction S using Finset.induction_on with
  | empty => simp
  | insert a S ha ih => rw [Finset.sum_insert ha, Finset.sum_insert ha, ih, EReal.coe_add]

/-- The exponential of a difference of two reals, read on the extended reals, is the real exponential. -/
theorem exp_sub_coe (a b : ℝ) :
    Ideal.exp ((a : EReal) - (b : EReal)) = ((Real.exp (a - b) : ℝ) : EReal) := by
  rw [← EReal.coe_sub, Ideal.exp_coe]

/-- The softmax-weighted average of `v` under the scores `s`. -/
def smAvg {ι : Type} [Fintype ι] (s v : ι → ℝ) : ℝ := (∑ j, v j * Real.exp (s j)) / (∑ j, Real.exp (s j))

/-- Re-indexing the index set does not change the average. -/
theorem smAvg_equiv {ι κ : Type} [Fintype ι] [Fintype κ] (e : ι ≃ κ) (s v : κ → ℝ) :
    smAvg (s ∘ e) (v ∘ e) = smAvg s v := by
  unfold smAvg
  rw [← Equiv.sum_comp e (fun j => v j * Real.exp (s j)), ← Equiv.sum_comp e (fun j => Real.exp (s j))]
  rfl

/-- SHIFT INVARIANCE: shifting every score by the real `M` multiplies numerator and denominator by the same
    positive number `e^{-M}`, so the quotient is unchanged. -/
theorem smAvg_shift {ι : Type} [Fintype ι] (s v : ι → ℝ) (M : ℝ) :
    (∑ j, v j * Real.exp (s j - M)) / (∑ j, Real.exp (s j - M)) = smAvg s v := by
  have hE : Real.exp M ≠ 0 := (Real.exp_pos M).ne'
  have h1 : (∑ j, v j * Real.exp (s j - M)) = (∑ j, v j * Real.exp (s j)) / Real.exp M := by
    rw [Finset.sum_div]
    refine Finset.sum_congr rfl fun j _ => ?_
    rw [Real.exp_sub, mul_div_assoc]
  have h2 : (∑ j, Real.exp (s j - M)) = (∑ j, Real.exp (s j)) / Real.exp M := by
    rw [Finset.sum_div]
    refine Finset.sum_congr rfl fun j _ => ?_
    rw [Real.exp_sub]
  rw [h1, h2, smAvg, div_div_div_cancel_right₀ hE]

/-- The lower half of 2048 positions. -/
def lo (j : Fin 1024) : Fin 2048 := ⟨j.val, by omega⟩
/-- The upper half of 2048 positions. -/
def hi (j : Fin 1024) : Fin 2048 := ⟨1024 + j.val, by omega⟩

/-- A position and its half determine each other: the map from the two halves into the 2048 positions is
    injective, because the lower half lands below 1024 and the upper half at or above it. -/
theorem lo_hi_injective : Function.Injective (Sum.elim lo hi) := by
  rintro (a | a) (b | b) h
  · have h0 := congrArg Fin.val h
    have h' : a.val = b.val := h0
    exact congrArg Sum.inl (Fin.ext h')
  · have h0 := congrArg Fin.val h
    have h' : a.val = 1024 + b.val := h0
    omega
  · have h0 := congrArg Fin.val h
    have h' : 1024 + a.val = b.val := h0
    omega
  · have h0 := congrArg Fin.val h
    have h' : 1024 + a.val = 1024 + b.val := h0
    exact congrArg Sum.inr (Fin.ext (by omega))

/-- The half, and the place in it, of one of the 2048 positions. -/
def splitInv (i : Fin 2048) : Fin 1024 ⊕ Fin 1024 :=
  if h : i.val < 1024 then Sum.inl ⟨i.val, h⟩ else Sum.inr ⟨i.val - 1024, by omega⟩

theorem split_right_inv (i : Fin 2048) : Sum.elim lo hi (splitInv i) = i := by
  unfold splitInv
  by_cases h : i.val < 1024
  · simp only [dif_pos h, Sum.elim_inl]
    rfl
  · simp only [dif_neg h, Sum.elim_inr]
    apply Fin.ext
    simp only [hi]
    omega

/-- The two halves put side by side are all 2048 positions. -/
def splitEquiv : Fin 1024 ⊕ Fin 1024 ≃ Fin 2048 where
  toFun := Sum.elim lo hi
  invFun := splitInv
  left_inv x := lo_hi_injective (split_right_inv (Sum.elim lo hi x))
  right_inv := split_right_inv

/-- An average over 2048 positions is the average over its two halves put side by side. -/
theorem smAvg_split (s v : Fin 2048 → ℝ) :
    smAvg s v = smAvg (Sum.elim (s ∘ lo) (s ∘ hi)) (Sum.elim (v ∘ lo) (v ∘ hi)) := by
  rw [← smAvg_equiv splitEquiv s v]
  congr 1 <;> (funext x; cases x <;> rfl)

/-- A sum over 2048 positions is the sum over the lower half plus the sum over the upper half. -/
theorem sum_split {M : Type} [AddCommMonoid M] (f : Fin 2048 → M) :
    (∑ j, f j) = (∑ j : Fin 1024, f (lo j)) + ∑ j : Fin 1024, f (hi j) := by
  rw [← Equiv.sum_comp splitEquiv f, Fintype.sum_sum_type]
  rfl

/-- THE STABLE FORM: weights `e^{s j - M}` normalised by their sum, then the weighted sum of the values. -/
theorem ref_form {ι : Type} [Fintype ι] [Nonempty ι] (s v : ι → ℝ) (M : ℝ) :
    (∑ j, (v j : EReal) * Ideal.div (Ideal.exp ((s j : EReal) - (M : EReal)))
        (∑ j', Ideal.exp ((s j' : EReal) - (M : EReal))))
      = ((smAvg s v : ℝ) : EReal) := by
  have hL : (∑ j', Real.exp (s j' - M)) ≠ 0 :=
    (Finset.sum_pos (fun j _ => Real.exp_pos (s j - M)) Finset.univ_nonempty).ne'
  simp only [exp_sub_coe]
  rw [coe_sum]
  simp only [Ideal.div_coe hL, ← EReal.coe_mul]
  rw [coe_sum, ← smAvg_shift s v M, Finset.sum_div]
  congr 1
  refine Finset.sum_congr rfl fun j _ => ?_
  ring

/-- THE TWO-TILE ONLINE FORM: the first tile's sums, taken at shift `m0`, are rescaled by `e^{m0 - m1}` and added to
    the second tile's, taken at shift `m1`; the result is the quotient of the two accumulated sums. -/
theorem ker_form {ι₀ ι₁ : Type} [Fintype ι₀] [Fintype ι₁] [Nonempty ι₀] (s0 v0 : ι₀ → ℝ) (s1 v1 : ι₁ → ℝ) (m0 m1 : ℝ) :
    Ideal.div
        (Ideal.exp ((m0 : EReal) - (m1 : EReal)) * (∑ j, (v0 j : EReal) * Ideal.exp ((s0 j : EReal) - (m0 : EReal)))
          + ∑ j, (v1 j : EReal) * Ideal.exp ((s1 j : EReal) - (m1 : EReal)))
        (Ideal.exp ((m0 : EReal) - (m1 : EReal)) * (∑ j, Ideal.exp ((s0 j : EReal) - (m0 : EReal)))
          + ∑ j, Ideal.exp ((s1 j : EReal) - (m1 : EReal)))
      = ((smAvg (Sum.elim s0 s1) (Sum.elim v0 v1) : ℝ) : EReal) := by
  have hD0 : 0 < ∑ j, Real.exp (s0 j - m0) :=
    Finset.sum_pos (fun j _ => Real.exp_pos (s0 j - m0)) Finset.univ_nonempty
  have hD1 : 0 ≤ ∑ j, Real.exp (s1 j - m1) := Finset.sum_nonneg (fun j _ => (Real.exp_pos (s1 j - m1)).le)
  have hD : Real.exp (m0 - m1) * (∑ j, Real.exp (s0 j - m0)) + ∑ j, Real.exp (s1 j - m1) ≠ 0 :=
    (add_pos_of_pos_of_nonneg (mul_pos (Real.exp_pos _) hD0) hD1).ne'
  -- rescaling by `e^{m0 - m1}` turns the shift `m0` into the shift `m1`
  have e0 : ∀ j, Real.exp (m0 - m1) * Real.exp (s0 j - m0) = Real.exp (s0 j - m1) := by
    intro j
    rw [← Real.exp_add]
    congr 1
    ring
  have hN : Real.exp (m0 - m1) * (∑ j, v0 j * Real.exp (s0 j - m0)) + ∑ j, v1 j * Real.exp (s1 j - m1)
      = ∑ x, Sum.elim v0 v1 x * Real.exp (Sum.elim s0 s1 x - m1) := by
    rw [Fintype.sum_sum_type, Finset.mul_sum]
    simp only [Sum.elim_inl, Sum.elim_inr]
    congr 1
    refine Finset.sum_congr rfl fun j _ => ?_
    rw [mul_left_comm, e0]
  have hDen : Real.exp (m0 - m1) * (∑ j, Real.exp (s0 j - m0)) + ∑ j, Real.exp (s1 j - m1)
      = ∑ x, Real.exp (Sum.elim s0 s1 x - m1) := by
    rw [Fintype.sum_sum_type, Finset.mul_sum]
    simp only [Sum.elim_inl, Sum.elim_inr]
    congr 1
    exact Finset.sum_congr rfl fun j _ => e0 j
  simp only [exp_sub_coe, ← EReal.coe_mul, coe_sum, ← EReal.coe_add]
  rw [Ideal.div_coe hD, ← EReal.coe_mul, hN, hDen, mul_one_div, smAvg_shift]

/-- The maximum of finitely many (at least one) real numbers, folded from `-∞`, is a real number. -/
theorem fold_max_real {ι : Type} (S : Finset ι) (hS : S.Nonempty) (f : ι → EReal)
    (hf : ∀ j ∈ S, ∃ r : ℝ, f j = (r : EReal)) : ∃ r : ℝ, S.fold max (⊥ : EReal) f = (r : EReal) := by
  classical
  induction S using Finset.induction_on with
  | empty => exact absurd hS (by simp)
  | insert a S ha ih =>
    rw [Finset.fold_insert ha]
    obtain ⟨r, hr⟩ := hf a (Finset.mem_insert_self a S)
    by_cases hne : S.Nonempty
    · obtain ⟨t, ht⟩ := ih hne (fun j hj => hf j (Finset.mem_insert_of_mem hj))
      rw [hr, ht]
      rcases le_total (r : EReal) (t : EReal) with h | h
      · exact ⟨t, max_eq_right h⟩
      · exact ⟨r, max_eq_left h⟩
    · rw [Finset.not_nonempty_iff_eq_empty] at hne
      subst hne
      rw [Finset.fold_empty, hr]
      exact ⟨r, max_eq_left bot_le⟩

/-- The maximum of two real numbers is a real number. -/
theorem max_real (x y : ℝ) : ∃ r : ℝ, max (x : EReal) (y : EReal) = (r : EReal) := by
  rcases le_total (x : EReal) (y : EReal) with h | h
  · exact ⟨y, max_eq_right h⟩
  · exact ⟨x, max_eq_left h⟩

/-! ## Attention scores and outputs for one (batch, head) pair -/

/-- The score of query position `i` against key position `j`: the scaled query column times the key column. -/
def score (c : ℝ) (q k : Fin 64 → Fin 2048 → ℝ) (i j : Fin 2048) : ℝ := ∑ d, (q d i * c) * k d j

/-- The attention output: the softmax-weighted average over key positions of value row `d`. -/
def attnOut (c : ℝ) (q k v : Fin 64 → Fin 2048 → ℝ) (d : Fin 64) (i : Fin 2048) : ℝ :=
  smAvg (fun j => score c q k i j) (fun j => v d j)

/-- The score on the extended reals, query factor first. -/
theorem coe_score (c : ℝ) (q k : Fin 64 → Fin 2048 → ℝ) (i j : Fin 2048) :
    (∑ d, ((q d i : EReal) * (c : EReal)) * (k d j : EReal)) = ((score c q k i j : ℝ) : EReal) := by
  simp only [← EReal.coe_mul]
  rw [coe_sum]
  rfl

/-- The score on the extended reals, key factor first. -/
theorem coe_score' (c : ℝ) (q k : Fin 64 → Fin 2048 → ℝ) (i j : Fin 2048) :
    (∑ d, (k d j : EReal) * ((q d i : EReal) * (c : EReal))) = ((score c q k i j : ℝ) : EReal) := by
  simp only [← EReal.coe_mul]
  rw [coe_sum]
  congr 1
  unfold score
  refine Finset.sum_congr rfl fun d _ => ?_
  rw [mul_comm]

end Cert.Attn

end
-- ==== Proof.KerValue.lean ====
/-
  The output block of one (batch, head) pair as a pure function of the blocks the body read, and its value
  at an index on real data.

  Over its two key tiles the body scales the query block once, and at each tile forms the scores of the tile's
  key positions against all query positions. The first tile leaves the column maxima `m0`, the column sums
  `l0` of `e^{s - m0}` and the products `acc0` of the value tile with those exponentials. The second tile takes
  `m1`, the larger of `m0` and its own column maxima, rescales `l0` and `acc0` by `e^{m0 - m1}`, adds its own
  sums and products taken at shift `m1`, and stores the quotient. On real data every shift is a real number, and
  the quotient is the softmax-weighted average of the value row over all key positions.
-/
import proofs.«430736_j35820027248841_3_alg».proof.Proof.Gen.KernelIdeal.Skeleton
import proofs.«430736_j35820027248841_3_alg».proof.Proof.Softmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KerValue

open Cert.KernelIdeal Cert.KernelIdeal.Gen
open Idealize.ShloMosaic Idealize.ShloMosaic.ValueIdx

/-- The output block after the second key tile, from the query block `xq`, the first tile's key and value blocks
    `k0`, `v0` and the second tile's `k1`, `v1`. -/
def outBlock {F : FTy → Type} [FloatOps F] (xq : Vec F S1x64x2048 .f32) (k0 v0 k1 v1 : Vec F S1x64x1024 .f32) :
    Vec F S1x64x2048 .f32 :=
  k0_pay15
    (k0_pay13 k1 v1 (k0_pay1 xq) (k0_pay8 k0 (k0_pay1 xq)) (k0_pay8 k0 (k0_pay1 xq)) (k0_pay7 k0 v0 (k0_pay1 xq)))
    (k0_pay12 k1 (k0_pay1 xq) (k0_pay8 k0 (k0_pay1 xq)) (k0_pay8 k0 (k0_pay1 xq)) (k0_pay6 k0 (k0_pay1 xq)))

/-! ## The two contractions' operand indices

The score product contracts the feature axis of the key tile [64, 1024] with the feature axis of the scaled query
block [64, 2048]; the value product contracts the position axis of the value tile [64, 1024] with the position
axis of the weights [1024, 2048]. At an output index and a contraction coordinate, each operand index is read off
axis by axis. -/

theorem lhs_qk_0 (o : S1024x2048.Idx) (q : dot_S64x1024_S64x2048_S1024x2048_0_0_1_1_n_n.contr.Idx) :
    (dot_S64x1024_S64x2048_S1024x2048_0_0_1_1_n_n.lhsIdx o q 0).val = (q ⟨0, by decide⟩).val :=
  dot_S64x1024_S64x2048_S1024x2048_0_0_1_1_n_n.lhsIdx_val_of_single rfl o q
theorem lhs_qk_1 (o : S1024x2048.Idx) (q : dot_S64x1024_S64x2048_S1024x2048_0_0_1_1_n_n.contr.Idx) :
    (dot_S64x1024_S64x2048_S1024x2048_0_0_1_1_n_n.lhsIdx o q 1).val = (o 0).val := by
  unfold DotDims.lhsIdx
  rw [dif_neg (show ¬(1 : Fin S64x1024.rank) ∈ dot_S64x1024_S64x2048_S1024x2048_0_0_1_1_n_n.lhsBatch by decide), dif_pos (show (1 : Fin S64x1024.rank) ∈ dot_S64x1024_S64x2048_S1024x2048_0_0_1_1_n_n.lhsNonContracting by decide)]
  rfl
theorem rhs_qk_0 (o : S1024x2048.Idx) (q : dot_S64x1024_S64x2048_S1024x2048_0_0_1_1_n_n.contr.Idx) :
    (dot_S64x1024_S64x2048_S1024x2048_0_0_1_1_n_n.rhsIdx o q 0).val = (q ⟨0, by decide⟩).val :=
  dot_S64x1024_S64x2048_S1024x2048_0_0_1_1_n_n.rhsIdx_val_of_single rfl o q
theorem rhs_qk_1 (o : S1024x2048.Idx) (q : dot_S64x1024_S64x2048_S1024x2048_0_0_1_1_n_n.contr.Idx) :
    (dot_S64x1024_S64x2048_S1024x2048_0_0_1_1_n_n.rhsIdx o q 1).val = (o 1).val := by
  unfold DotDims.rhsIdx
  rw [dif_neg (show ¬(1 : Fin S64x2048.rank) ∈ dot_S64x1024_S64x2048_S1024x2048_0_0_1_1_n_n.rhsBatch by decide), dif_pos (show (1 : Fin S64x2048.rank) ∈ dot_S64x1024_S64x2048_S1024x2048_0_0_1_1_n_n.rhsNonContracting by decide)]
  rfl

theorem lhs_pv_0 (o : S64x2048.Idx) (q : dot_S64x1024_S1024x2048_S64x2048_1_0_0_1_n_n.contr.Idx) :
    (dot_S64x1024_S1024x2048_S64x2048_1_0_0_1_n_n.lhsIdx o q 0).val = (o 0).val := by
  unfold DotDims.lhsIdx
  rw [dif_neg (show ¬(0 : Fin S64x1024.rank) ∈ dot_S64x1024_S1024x2048_S64x2048_1_0_0_1_n_n.lhsBatch by decide), dif_pos (show (0 : Fin S64x1024.rank) ∈ dot_S64x1024_S1024x2048_S64x2048_1_0_0_1_n_n.lhsNonContracting by decide)]
  rfl
theorem lhs_pv_1 (o : S64x2048.Idx) (q : dot_S64x1024_S1024x2048_S64x2048_1_0_0_1_n_n.contr.Idx) :
    (dot_S64x1024_S1024x2048_S64x2048_1_0_0_1_n_n.lhsIdx o q 1).val = (q ⟨0, by decide⟩).val :=
  dot_S64x1024_S1024x2048_S64x2048_1_0_0_1_n_n.lhsIdx_val_of_single rfl o q
theorem rhs_pv_0 (o : S64x2048.Idx) (q : dot_S64x1024_S1024x2048_S64x2048_1_0_0_1_n_n.contr.Idx) :
    (dot_S64x1024_S1024x2048_S64x2048_1_0_0_1_n_n.rhsIdx o q 0).val = (q ⟨0, by decide⟩).val :=
  dot_S64x1024_S1024x2048_S64x2048_1_0_0_1_n_n.rhsIdx_val_of_single rfl o q
theorem rhs_pv_1 (o : S64x2048.Idx) (q : dot_S64x1024_S1024x2048_S64x2048_1_0_0_1_n_n.contr.Idx) :
    (dot_S64x1024_S1024x2048_S64x2048_1_0_0_1_n_n.rhsIdx o q 1).val = (o 1).val := by
  unfold DotDims.rhsIdx
  rw [dif_neg (show ¬(1 : Fin S1024x2048.rank) ∈ dot_S64x1024_S1024x2048_S64x2048_1_0_0_1_n_n.rhsBatch by decide), dif_pos (show (1 : Fin S1024x2048.rank) ∈ dot_S64x1024_S1024x2048_S64x2048_1_0_0_1_n_n.rhsNonContracting by decide)]
  rfl

/-- The score product at key position j and query position i: the sum over the 64 features of the key tile's
    entry times the scaled query's entry. -/
theorem matmul_qk_apply (a : FVec Ideal S64x1024 .bf16) (b : FVec Ideal S64x2048 .bf16) (j : Fin 1024) (i : Fin 2048) :
    matmul dot_S64x1024_S64x2048_S1024x2048_0_0_1_1_n_n none a b (constant (F := Ideal) S1024x2048 .f32 0x00000000#32) (ix2 j i)
      = ∑ d : Fin 64, a (ix2 d j) * b (ix2 d i) := by
  simp only [matmul]
  rw [Ideal.matmul_constant_zero_apply, ← Equiv.sum_comp (contrEquiv1 dot_S64x1024_S64x2048_S1024x2048_0_0_1_1_n_n 64 rfl rfl).symm]
  refine Finset.sum_congr rfl fun d _ => ?_
  have hk := contrEquiv1_symm_val dot_S64x1024_S64x2048_S1024x2048_0_0_1_1_n_n 64 rfl rfl d
  have el : dot_S64x1024_S64x2048_S1024x2048_0_0_1_1_n_n.lhsIdx (ix2 j i) ((contrEquiv1 dot_S64x1024_S64x2048_S1024x2048_0_0_1_1_n_n 64 rfl rfl).symm d) = ix2 d j := funext fun ax => Fin.ext (by
    match ax with
    | ⟨0, _⟩ => exact (lhs_qk_0 _ _).trans hk
    | ⟨1, _⟩ => exact lhs_qk_1 _ _)
  have er : dot_S64x1024_S64x2048_S1024x2048_0_0_1_1_n_n.rhsIdx (ix2 j i) ((contrEquiv1 dot_S64x1024_S64x2048_S1024x2048_0_0_1_1_n_n 64 rfl rfl).symm d) = ix2 d i := funext fun ax => Fin.ext (by
    match ax with
    | ⟨0, _⟩ => exact (rhs_qk_0 _ _).trans hk
    | ⟨1, _⟩ => exact rhs_qk_1 _ _)
  rw [el, er]

/-- The value product at feature d and query position i: the sum over the tile's 1024 key positions of the value
    tile's entry times the weight. -/
theorem matmul_pv_apply (a : FVec Ideal S64x1024 .bf16) (b : FVec Ideal S1024x2048 .bf16) (d : Fin 64) (i : Fin 2048) :
    matmul dot_S64x1024_S1024x2048_S64x2048_1_0_0_1_n_n none a b (constant (F := Ideal) S64x2048 .f32 0x00000000#32) (ix2 d i)
      = ∑ j : Fin 1024, a (ix2 d j) * b (ix2 j i) := by
  simp only [matmul]
  rw [Ideal.matmul_constant_zero_apply, ← Equiv.sum_comp (contrEquiv1 dot_S64x1024_S1024x2048_S64x2048_1_0_0_1_n_n 1024 rfl rfl).symm]
  refine Finset.sum_congr rfl fun j _ => ?_
  have hk := contrEquiv1_symm_val dot_S64x1024_S1024x2048_S64x2048_1_0_0_1_n_n 1024 rfl rfl j
  have el : dot_S64x1024_S1024x2048_S64x2048_1_0_0_1_n_n.lhsIdx (ix2 d i) ((contrEquiv1 dot_S64x1024_S1024x2048_S64x2048_1_0_0_1_n_n 1024 rfl rfl).symm j) = ix2 d j := funext fun ax => Fin.ext (by
    match ax with
    | ⟨0, _⟩ => exact lhs_pv_0 _ _
    | ⟨1, _⟩ => exact (lhs_pv_1 _ _).trans hk)
  have er : dot_S64x1024_S1024x2048_S64x2048_1_0_0_1_n_n.rhsIdx (ix2 d i) ((contrEquiv1 dot_S64x1024_S1024x2048_S64x2048_1_0_0_1_n_n 1024 rfl rfl).symm j) = ix2 j i := funext fun ax => Fin.ext (by
    match ax with
    | ⟨0, _⟩ => exact (rhs_pv_0 _ _).trans hk
    | ⟨1, _⟩ => exact rhs_pv_1 _ _)
  rw [el, er]

/-! ## Reductions down a column of the [1024, 2048] score matrix -/

/-- The word 0xFF800000 is minus infinity. -/
theorem ofBits_neg_inf : Ideal.ofBits .f32 0xFF800000#32 = (⊥ : EReal) := by
  simp [Ideal.ofBits, Ideal.ieee]

/-- Column i with row coordinate j put back is the entry (j, i). -/
theorem lift_col (i : Fin 2048) (j : Fin 1024) : reduces_S1024x2048_S2048.lift (ix1 i) j = ix2 j i := by
  funext a
  apply Fin.ext
  match a with
  | ⟨0, _⟩ => rfl
  | ⟨1, _⟩ => rfl

/-- The column maximum: the fold of max from minus infinity over the 1024 rows. -/
theorem colmax_apply (s : FVec Ideal S1024x2048 .f32) (i : Fin 2048) :
    multiReduction (F := Ideal) .maximumf [0] S2048 s 0xFF800000#32 reduces_S1024x2048_S2048 (.inl rfl) rfl (ix1 i)
      = (Finset.univ : Finset (Fin 1024)).fold max (⊥ : EReal) (fun j => s (ix2 j i)) := by
  refine (Ideal.multiReduction_maximumf_single s 0xFF800000#32 reduces_S1024x2048_S2048 (.inl rfl) rfl (ix1 i)).trans ?_
  have hf : (s ∘ reduces_S1024x2048_S2048.lift (ix1 i)) = fun j : Fin 1024 => s (ix2 j i) :=
    funext fun j => congrArg s (lift_col i j)
  have hb : (FloatOps.ofBits (F := Ideal) .f32 0xFF800000#32) = (⊥ : EReal) := ofBits_neg_inf
  rw [hf, hb]
  rfl

/-- The column sum over the 1024 rows. -/
theorem colsum_apply (s : FVec Ideal S1024x2048 .f32) (i : Fin 2048) :
    multiReduction (F := Ideal) .add [0] S2048 s 0x00000000#32 reduces_S1024x2048_S2048 (.inl rfl) rfl (ix1 i)
      = ∑ j : Fin 1024, s (ix2 j i) := by
  refine (Ideal.multiReduction_add_single s 0x00000000#32 reduces_S1024x2048_S2048 (.inl rfl) rfl (ix1 i)).trans ?_
  exact Finset.sum_congr rfl fun j _ => congrArg s (lift_col i j)

/-! ## The payloads at an index

Each payload is read at coordinates in terms of the payloads it is built from. A change of float
format is the identity on extended reals, a cast that drops or adds the leading unit axis moves no entry, and a row
broadcast down the rows reads the row. -/

/-- The scaled query block: the query entry times the scale. -/
theorem pay1_apply (xq : Vec Ideal S1x64x2048 .f32) (d : Fin 64) (i : Fin 2048) :
    k0_pay1 xq (ix2 d i) = xq (ix3 (0 : Fin 1) d i) * Ideal.ofBits .f32 0x3E000000#32 := by
  unfold k0_pay1
  rw [shapeCast_self, truncf_apply, mulf_apply, shapeCast_1ab_ab_apply]
  rfl

/-- The value tile with its unit axis dropped. -/
theorem pay2_apply (v : Vec Ideal S1x64x1024 .f32) (d : Fin 64) (j : Fin 1024) :
    k0_pay2 v (ix2 d j) = v (ix3 (0 : Fin 1) d j) := by
  unfold k0_pay2
  rw [truncf_apply, shapeCast_1ab_ab_apply]

/-- The score of key position j of the tile against query position i. -/
theorem pay3_apply (k : Vec Ideal S1x64x1024 .f32) (qb : Vec Ideal S64x2048 .bf16) (j : Fin 1024) (i : Fin 2048) :
    k0_pay3 k qb (ix2 j i) = ∑ d : Fin 64, k (ix3 (0 : Fin 1) d j) * qb (ix2 d i) := by
  unfold k0_pay3
  refine (matmul_qk_apply _ _ j i).trans ?_
  refine Finset.sum_congr rfl fun d _ => ?_
  rw [truncf_apply, shapeCast_1ab_ab_apply]

/-- The tile's column maximum. -/
theorem pay4_apply (k : Vec Ideal S1x64x1024 .f32) (qb : Vec Ideal S64x2048 .bf16) (i : Fin 2048) :
    k0_pay4 k qb (ix2 (0 : Fin 1) i)
      = (Finset.univ : Finset (Fin 1024)).fold max (⊥ : EReal) (fun j => k0_pay3 k qb (ix2 j i)) := by
  unfold k0_pay4
  dsimp only
  refine (shapeCast_a_1a_apply _ _ (0 : Fin 1) i).trans ?_
  exact colmax_apply _ i

/-- The first tile's weights: the exponential of the score less the column maximum. -/
theorem pay5_apply (k : Vec Ideal S1x64x1024 .f32) (qb : Vec Ideal S64x2048 .bf16) (j : Fin 1024) (i : Fin 2048) :
    k0_pay5 k qb (ix2 j i) = Ideal.exp (k0_pay3 k qb (ix2 j i) - k0_pay4 k qb (ix2 (0 : Fin 1) i)) := by
  unfold k0_pay5
  show Ideal.exp (k0_pay3 k qb (ix2 j i) - broadcastTo S1024x2048 (k0_pay4 k qb) broadcasts_S1x2048_S1024x2048 (ix2 j i)) = _
  rw [broadcastTo_1b_ab_apply]

/-- The first tile's column sums of the weights. -/
theorem pay6_apply (k : Vec Ideal S1x64x1024 .f32) (qb : Vec Ideal S64x2048 .bf16) (i : Fin 2048) :
    k0_pay6 k qb (ix2 (0 : Fin 1) i) = ∑ j : Fin 1024, k0_pay5 k qb (ix2 j i) := by
  unfold k0_pay6
  dsimp only
  rw [shapeCast_self]
  refine (shapeCast_a_1a_apply _ _ (0 : Fin 1) i).trans ?_
  exact colsum_apply _ i

/-- The first tile's product of the value tile with the weights. -/
theorem pay7_apply (k v : Vec Ideal S1x64x1024 .f32) (qb : Vec Ideal S64x2048 .bf16) (d : Fin 64) (i : Fin 2048) :
    k0_pay7 k v qb (ix2 d i) = ∑ j : Fin 1024, v (ix3 (0 : Fin 1) d j) * k0_pay5 k qb (ix2 j i) := by
  unfold k0_pay7
  rw [shapeCast_self]
  refine (matmul_pv_apply _ _ d i).trans ?_
  refine Finset.sum_congr rfl fun j _ => ?_
  rw [pay2_apply, truncf_apply]

/-- The stored column maximum is the column maximum. -/
theorem pay8_eq (k : Vec Ideal S1x64x1024 .f32) (qb : Vec Ideal S64x2048 .bf16) : k0_pay8 k qb = k0_pay4 k qb := by
  unfold k0_pay8
  dsimp only
  rw [shapeCast_self]

/-- The updated maximum: the larger of the running maximum and the tile's column maximum. -/
theorem pay9_apply (k : Vec Ideal S1x64x1024 .f32) (qb : Vec Ideal S64x2048 .bf16) (mo : Vec Ideal S1x2048 .f32) (i : Fin 2048) :
    k0_pay9 k qb mo (ix2 (0 : Fin 1) i)
      = max (mo (ix2 (0 : Fin 1) i)) ((Finset.univ : Finset (Fin 1024)).fold max (⊥ : EReal) (fun j => k0_pay3 k qb (ix2 j i))) := by
  unfold k0_pay9
  dsimp only
  rw [maximumf_apply]
  refine congrArg (max (mo (ix2 (0 : Fin 1) i))) ?_
  refine (shapeCast_a_1a_apply _ _ (0 : Fin 1) i).trans ?_
  exact colmax_apply _ i

/-- The rescaling factor: the exponential of the old maximum less the updated one. -/
theorem pay10_apply (k : Vec Ideal S1x64x1024 .f32) (qb : Vec Ideal S64x2048 .bf16) (mo mo' : Vec Ideal S1x2048 .f32) (i : Fin 2048) :
    k0_pay10 k qb mo mo' (ix2 (0 : Fin 1) i)
      = Ideal.exp (mo' (ix2 (0 : Fin 1) i) - k0_pay9 k qb mo (ix2 (0 : Fin 1) i)) := by
  unfold k0_pay10
  show Ideal.exp (subf mo' (k0_pay9 k qb mo) (ix2 (0 : Fin 1) i)) = _
  rw [subf_apply]

/-- The second tile's weights: the exponential of the score less the updated maximum. -/
theorem pay11_apply (k : Vec Ideal S1x64x1024 .f32) (qb : Vec Ideal S64x2048 .bf16) (mo : Vec Ideal S1x2048 .f32) (j : Fin 1024) (i : Fin 2048) :
    k0_pay11 k qb mo (ix2 j i) = Ideal.exp (k0_pay3 k qb (ix2 j i) - k0_pay9 k qb mo (ix2 (0 : Fin 1) i)) := by
  unfold k0_pay11
  show Ideal.exp (k0_pay3 k qb (ix2 j i) - broadcastTo S1024x2048 (k0_pay9 k qb mo) broadcasts_S1x2048_S1024x2048 (ix2 j i)) = _
  rw [broadcastTo_1b_ab_apply]

/-- The updated column sums: the old ones rescaled plus the second tile's. -/
theorem pay12_apply (k : Vec Ideal S1x64x1024 .f32) (qb : Vec Ideal S64x2048 .bf16) (mo mo' lo : Vec Ideal S1x2048 .f32) (i : Fin 2048) :
    k0_pay12 k qb mo mo' lo (ix2 (0 : Fin 1) i)
      = k0_pay10 k qb mo mo' (ix2 (0 : Fin 1) i) * lo (ix2 (0 : Fin 1) i) + ∑ j : Fin 1024, k0_pay11 k qb mo (ix2 j i) := by
  unfold k0_pay12
  dsimp only
  rw [shapeCast_self, addf_apply, mulf_apply]
  refine congrArg (k0_pay10 k qb mo mo' (ix2 (0 : Fin 1) i) * lo (ix2 (0 : Fin 1) i) + ·) ?_
  refine (shapeCast_a_1a_apply _ _ (0 : Fin 1) i).trans ?_
  exact colsum_apply _ i

/-- The updated product: the old one rescaled plus the second tile's. -/
theorem pay13_apply (k v : Vec Ideal S1x64x1024 .f32) (qb : Vec Ideal S64x2048 .bf16) (mo mo' : Vec Ideal S1x2048 .f32)
    (acco : Vec Ideal S64x2048 .f32) (d : Fin 64) (i : Fin 2048) :
    k0_pay13 k v qb mo mo' acco (ix2 d i)
      = k0_pay10 k qb mo mo' (ix2 (0 : Fin 1) i) * acco (ix2 d i) + ∑ j : Fin 1024, v (ix3 (0 : Fin 1) d j) * k0_pay11 k qb mo (ix2 j i) := by
  unfold k0_pay13
  rw [shapeCast_self, addf_apply, mulf_apply, broadcastTo_1b_ab_apply]
  refine congrArg (k0_pay10 k qb mo mo' (ix2 (0 : Fin 1) i) * acco (ix2 d i) + ·) ?_
  refine (matmul_pv_apply _ _ d i).trans ?_
  refine Finset.sum_congr rfl fun j _ => ?_
  rw [pay2_apply, truncf_apply]

/-- The output block: the product divided, column by column, by the column sums. -/
theorem pay15_apply (acc : Vec Ideal S64x2048 .f32) (l : Vec Ideal S1x2048 .f32) (d : Fin 64) (i : Fin 2048) :
    k0_pay15 acc l (ix3 (0 : Fin 1) d i) = Ideal.div (acc (ix2 d i)) (l (ix2 (0 : Fin 1) i)) := by
  unfold k0_pay15
  refine (shapeCast_ab_1ab_apply _ _ (0 : Fin 1) d i).trans ?_
  rw [divf_apply, broadcastTo_1b_ab_apply]

/-! ## On real data -/

/-- On a real query block and a real key tile that holds the key positions e j of the slab, the tile's score of
    position j against query position i is the real score of key position e j. -/
theorem score_tile (c : ℝ) (hc : Ideal.ofBits .f32 0x3E000000#32 = (c : EReal)) (q k : Fin 64 → Fin 2048 → ℝ)
    (xq : Vec Ideal S1x64x2048 .f32) (kt : Vec Ideal S1x64x1024 .f32) (e : Fin 1024 → Fin 2048)
    (hq : ∀ (d : Fin 64) (i : Fin 2048), xq (ix3 (0 : Fin 1) d i) = ((q d i : ℝ) : EReal))
    (hk : ∀ (d : Fin 64) (j : Fin 1024), kt (ix3 (0 : Fin 1) d j) = ((k d (e j) : ℝ) : EReal))
    (j : Fin 1024) (i : Fin 2048) :
    k0_pay3 kt (k0_pay1 xq) (ix2 j i) = ((Cert.Attn.score c q k i (e j) : ℝ) : EReal) := by
  rw [pay3_apply, ← Cert.Attn.coe_score']
  refine Finset.sum_congr rfl fun d _ => ?_
  rw [pay1_apply, hk, hq, hc]

/-- On real data — the query block the slab `q`, the key and value tiles the lower and upper halves of the slabs
    `k` and `v` along the sequence axis, the scale literal the real `c` — the output block at feature `d` and
    position `i` is the attention output there. -/
theorem outBlock_apply (c : ℝ) (hc : Ideal.ofBits .f32 0x3E000000#32 = (c : EReal))
    (q k v : Fin 64 → Fin 2048 → ℝ)
    (xq : Vec Ideal S1x64x2048 .f32) (k0 v0 k1 v1 : Vec Ideal S1x64x1024 .f32)
    (hq : ∀ (d : Fin 64) (i : Fin 2048), xq (ix3 (0 : Fin 1) d i) = ((q d i : ℝ) : EReal))
    (hk0 : ∀ (d : Fin 64) (j : Fin 1024), k0 (ix3 (0 : Fin 1) d j) = ((k d (Cert.Attn.lo j) : ℝ) : EReal))
    (hv0 : ∀ (d : Fin 64) (j : Fin 1024), v0 (ix3 (0 : Fin 1) d j) = ((v d (Cert.Attn.lo j) : ℝ) : EReal))
    (hk1 : ∀ (d : Fin 64) (j : Fin 1024), k1 (ix3 (0 : Fin 1) d j) = ((k d (Cert.Attn.hi j) : ℝ) : EReal))
    (hv1 : ∀ (d : Fin 64) (j : Fin 1024), v1 (ix3 (0 : Fin 1) d j) = ((v d (Cert.Attn.hi j) : ℝ) : EReal))
    (d : Fin 64) (i : Fin 2048) :
    outBlock (F := Ideal) xq k0 v0 k1 v1 (ix3 (0 : Fin 1) d i) = ((Cert.Attn.attnOut c q k v d i : ℝ) : EReal) := by
  have hs0 : ∀ j : Fin 1024, k0_pay3 k0 (k0_pay1 xq) (ix2 j i) = ((Cert.Attn.score c q k i (Cert.Attn.lo j) : ℝ) : EReal) :=
    fun j => score_tile c hc q k xq k0 Cert.Attn.lo hq hk0 j i
  have hs1 : ∀ j : Fin 1024, k0_pay3 k1 (k0_pay1 xq) (ix2 j i) = ((Cert.Attn.score c q k i (Cert.Attn.hi j) : ℝ) : EReal) :=
    fun j => score_tile c hc q k xq k1 Cert.Attn.hi hq hk1 j i
  unfold outBlock
  generalize k0_pay1 xq = qb at hs0 hs1 ⊢
  -- the first tile's column maximum is a real number
  obtain ⟨m0r, hm0⟩ : ∃ r : ℝ, k0_pay4 k0 qb (ix2 (0 : Fin 1) i) = (r : EReal) := by
    rw [pay4_apply]
    exact Cert.Attn.fold_max_real Finset.univ Finset.univ_nonempty _ (fun j _ => ⟨_, hs0 j⟩)
  have hM : k0_pay8 k0 qb (ix2 (0 : Fin 1) i) = (m0r : EReal) := by rw [pay8_eq]; exact hm0
  -- so is the updated maximum
  obtain ⟨t, ht⟩ : ∃ r : ℝ, (Finset.univ : Finset (Fin 1024)).fold max (⊥ : EReal) (fun j => k0_pay3 k1 qb (ix2 j i)) = (r : EReal) :=
    Cert.Attn.fold_max_real Finset.univ Finset.univ_nonempty _ (fun j _ => ⟨_, hs1 j⟩)
  obtain ⟨m1r, hm1r⟩ := Cert.Attn.max_real m0r t
  have hm1 : k0_pay9 k1 qb (k0_pay8 k0 qb) (ix2 (0 : Fin 1) i) = (m1r : EReal) := by
    rw [pay9_apply, hM, ht, hm1r]
  -- the first tile's weights, sums and products at shift m0
  have hp0 : ∀ j : Fin 1024, k0_pay5 k0 qb (ix2 j i)
      = Ideal.exp (((Cert.Attn.score c q k i (Cert.Attn.lo j) : ℝ) : EReal) - (m0r : EReal)) := by
    intro j; rw [pay5_apply, hs0, hm0]
  have hL0 : k0_pay6 k0 qb (ix2 (0 : Fin 1) i)
      = ∑ j : Fin 1024, Ideal.exp (((Cert.Attn.score c q k i (Cert.Attn.lo j) : ℝ) : EReal) - (m0r : EReal)) := by
    rw [pay6_apply]; exact Finset.sum_congr rfl fun j _ => hp0 j
  have hA0 : k0_pay7 k0 v0 qb (ix2 d i)
      = ∑ j : Fin 1024, ((v d (Cert.Attn.lo j) : ℝ) : EReal) * Ideal.exp (((Cert.Attn.score c q k i (Cert.Attn.lo j) : ℝ) : EReal) - (m0r : EReal)) := by
    rw [pay7_apply]; refine Finset.sum_congr rfl fun j _ => ?_; rw [hv0, hp0]
  -- the rescaling factor and the second tile's weights at shift m1
  have ha : k0_pay10 k1 qb (k0_pay8 k0 qb) (k0_pay8 k0 qb) (ix2 (0 : Fin 1) i) = Ideal.exp ((m0r : EReal) - (m1r : EReal)) := by
    rw [pay10_apply, hM, hm1]
  have hp1 : ∀ j : Fin 1024, k0_pay11 k1 qb (k0_pay8 k0 qb) (ix2 j i)
      = Ideal.exp (((Cert.Attn.score c q k i (Cert.Attn.hi j) : ℝ) : EReal) - (m1r : EReal)) := by
    intro j; rw [pay11_apply, hs1, hm1]
  have hL1 : (∑ j : Fin 1024, k0_pay11 k1 qb (k0_pay8 k0 qb) (ix2 j i))
      = ∑ j : Fin 1024, Ideal.exp (((Cert.Attn.score c q k i (Cert.Attn.hi j) : ℝ) : EReal) - (m1r : EReal)) :=
    Finset.sum_congr rfl fun j _ => hp1 j
  have hA1 : (∑ j : Fin 1024, v1 (ix3 (0 : Fin 1) d j) * k0_pay11 k1 qb (k0_pay8 k0 qb) (ix2 j i))
      = ∑ j : Fin 1024, ((v d (Cert.Attn.hi j) : ℝ) : EReal) * Ideal.exp (((Cert.Attn.score c q k i (Cert.Attn.hi j) : ℝ) : EReal) - (m1r : EReal)) :=
    Finset.sum_congr rfl fun j _ => by rw [hv1, hp1]
  -- the quotient is the two-tile online form of the softmax average
  rw [pay15_apply, pay13_apply, pay12_apply, ha, hA0, hL0, hA1, hL1]
  refine (Cert.Attn.ker_form (fun j => Cert.Attn.score c q k i (Cert.Attn.lo j)) (fun j => v d (Cert.Attn.lo j))
    (fun j => Cert.Attn.score c q k i (Cert.Attn.hi j)) (fun j => v d (Cert.Attn.hi j)) m0r m1r).trans ?_
  refine congrArg (fun r : ℝ => (r : EReal)) ?_
  unfold Cert.Attn.attnOut
  exact (Cert.Attn.smAvg_split (fun j => Cert.Attn.score c q k i j) (fun j => v d j)).symm

end Cert.KernelIdeal.KerValue

end
-- ==== Proof.KerInv.lean ====
/-
  What the body's buffers hold after each grid point, as the payload terms of the blocks staged there.

  The grid walks the (batch, head) pairs in its first coordinate and the two key tiles in its second, so the
  points come in consecutive pairs: an even point is a pair's first key tile, the odd point after it the second.
  After an even point the four running buffers hold the first tile's terms of that point's blocks and nothing
  from any earlier point, because the first tile overwrites all of them. After an odd point the output's
  buffer holds the second tile's update of exactly those terms, divided out: the output block of the pair as one
  pure function of the query block and the two key and value tiles.
-/
import proofs.«430736_j35820027248841_3_alg».proof.Proof.Gen.KernelIdeal.Frame
import proofs.«430736_j35820027248841_3_alg».proof.Proof.KerPieces
import proofs.«430736_j35820027248841_3_alg».proof.Proof.KerValue
import Idealize.ShloMosaic.Lib.Pipeline.Value

set_option maxRecDepth 16384

noncomputable section

namespace Cert.KernelIdeal.Inv

open Cert.KernelIdeal Cert.KernelIdeal.Gen Cert.KernelIdeal.Pieces
open Idealize.ShloMosaic Idealize.ShloMosaic.TcCoe
open Idealize.SL Idealize.SL.Sem

variable {F : FTy → Type} [FloatOps F]
variable (m : (ℓ : Loc nD τ sig) → Buf (Elt F) ℓ)

/-- The query block the pipeline stages at point `t`. -/
abbrev qblk (c : Dev nD) (t : Fin cfg0.N) : Vec F S1x64x2048 .f32 := iblk m c 0 t
/-- The key tile staged at point `t`. -/
abbrev kblk (c : Dev nD) (t : Fin cfg0.N) : Vec F S1x64x1024 .f32 := iblk m c 1 t
/-- The value tile staged at point `t`. -/
abbrev vblk (c : Dev nD) (t : Fin cfg0.N) : Vec F S1x64x1024 .f32 := iblk m c 2 t

/-- After a first-tile point the four running buffers hold that tile's terms: the column maxima, the column sums
    of the shifted exponentials, the value tile times those exponentials, and the scaled query block. -/
theorem after_first (c : Dev nD) (t : Fin cfg0.N) (h0 : t.val % 2 = 0) :
    (outsAt0 m c t.val t.isLt).2 =
      (k0_pay8 (kblk m c t) (k0_pay1 (qblk m c t)), k0_pay6 (kblk m c t) (k0_pay1 (qblk m c t)),
        k0_pay7 (kblk m c t) (vblk m c t) (k0_pay1 (qblk m c t)), (k0_pay1 (qblk m c t) : Vec F S64x2048 .bf16)) := by
  have h1 : t.val % 2 = 0 := h0
  have h2 : ¬t.val % 2 = 1 := by omega
  have h3 : ¬t.val % 2 = 1 := by omega
  rw [outsAt0_A m c t h0 h1 h2 h3]
  dsimp only
  rw [first_max c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (qblk m c t) (kblk m c t) (vblk m c t),
      first_sum c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (qblk m c t) (kblk m c t) (vblk m c t),
      first_acc c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (qblk m c t) (kblk m c t) (vblk m c t),
      first_qb c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (fun h => h3 ((hcond0_3 t).mp h)) (qblk m c t) (kblk m c t) (vblk m c t)]

/-- The point before `t`. -/
abbrev before (t : Fin cfg0.N) : Fin cfg0.N := ⟨t.val - 1, Nat.lt_of_le_of_lt (Nat.sub_le _ _) t.isLt⟩

/-- After a second-tile point the output's buffer holds the output block of the (batch, head) pair: the second
    tile's update of what the first tile, one point earlier, left, divided out. -/
theorem out_second (c : Dev nD) (t : Fin cfg0.N) (ht : t.val % 2 = 1) :
    (outsAt0 m c t.val t.isLt).1 =
      KerValue.outBlock (qblk m c (before t)) (kblk m c (before t)) (vblk m c (before t)) (kblk m c t) (vblk m c t) := by
  have h0 : ¬t.val % 2 = 0 := by omega
  have h1 : ¬t.val % 2 = 0 := by omega
  have h2 : t.val % 2 = 1 := ht
  have h3 : t.val % 2 = 1 := ht
  have hp : (outsAt0 m c (t.val - 1) (Nat.lt_of_le_of_lt (Nat.sub_le _ _) t.isLt)).2 = _ :=
    after_first m c (before t) (by show (t.val - 1) % 2 = 0; omega)
  rw [outsAt0_B m c t h0 h1 h2 h3]
  dsimp only
  rw [second_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) ((hcond0_3 t).mpr h3) (qblk m c t) (kblk m c t) (vblk m c t) _ _ _ _]
  rw [hp]
  dsimp only
  unfold KerValue.outBlock
  rfl

end Cert.KernelIdeal.Inv

end
-- ==== Proof.Slab.lean ====
/-
  One (batch, head) pair's slab of a real-valued array of shape [4, 16, 64, 2048]: a function of the feature
  coordinate and the sequence position. Attention treats every such slab independently.
-/
import Idealize.ShloMosaic.Lib.ValueIdx

namespace Cert.Attn

open Idealize.ShloMosaic Idealize.ShloMosaic.ValueIdx

/-- The slab of `x` at batch `b` and head `h`. -/
def slab (x : (⟨4, ![4, 16, 64, 2048]⟩ : Shape).Idx → ℝ) (b : Fin 4) (h : Fin 16) (d : Fin 64) (i : Fin 2048) : ℝ :=
  x (ix4 b h d i)

end Cert.Attn
-- ==== Proof.KerBlocks.lean ====
/-
  Where the staged blocks sit in the arguments.

  The host merges the batch and head axes of each [4, 16, 64, 2048] argument into one axis of 64 before the
  region. The pipeline stages, at the point of pair `p` and key tile `κ`, the query's whole [64, 2048] slab
  of pair `p` and the key's and the value's [64, 1024] tiles at positions `κ · 1024 …`. An element of a block
  sits in its array at block index × block size + its own coordinate on every axis, and an element of a merged
  array is the argument's at batch `p / 16` and head `p % 16`.
-/
import proofs.«430736_j35820027248841_3_alg».proof.Proof.Gen.KernelIdeal.Frame
import proofs.«430736_j35820027248841_3_alg».proof.Proof.KerInv
import proofs.«430736_j35820027248841_3_alg».proof.Proof.Slab
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.KernelIdeal.Inv
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)
open Idealize.ShloMosaic.StableHlo

theorem N128 : cfg0.N = 128 := N_0

/-- The (batch, head) pair a point works on: the grid's first coordinate. -/
def pairOf (t : Fin cfg0.N) : Fin 64 := ⟨t.val / 2, by have : t.val < 128 := lt_of_lt_of_eq t.isLt N128; omega⟩

/-- Position `j` of the key tile staged at point `t`, as a position of the whole sequence: the grid's second
    coordinate picks the lower or the upper half. -/
def posOf (t : Fin cfg0.N) (j : Fin 1024) : Fin 2048 := ⟨t.val % 2 * 1024 + j.val, by have := j.isLt; omega⟩

theorem index_q : ∀ t : Fin cfg0.N, win0_0.index t (0 : Fin 3) = t.val / 2 ∧ win0_0.index t (1 : Fin 3) = 0 ∧ win0_0.index t (2 : Fin 3) = 0 :=
  (by decide +kernel : ∀ t : Fin grid0.N, _)
theorem index_k : ∀ t : Fin cfg0.N, win0_1.index t (0 : Fin 3) = t.val / 2 ∧ win0_1.index t (1 : Fin 3) = 0 ∧ win0_1.index t (2 : Fin 3) = t.val % 2 :=
  (by decide +kernel : ∀ t : Fin grid0.N, _)
theorem index_v : ∀ t : Fin cfg0.N, win0_2.index t (0 : Fin 3) = t.val / 2 ∧ win0_2.index t (1 : Fin 3) = 0 ∧ win0_2.index t (2 : Fin 3) = t.val % 2 :=
  (by decide +kernel : ∀ t : Fin grid0.N, _)
theorem index_o : ∀ t : Fin cfg0.N, win0_3.index t (0 : Fin 3) = t.val / 2 ∧ win0_3.index t (1 : Fin 3) = 0 ∧ win0_3.index t (2 : Fin 3) = 0 :=
  (by decide +kernel : ∀ t : Fin grid0.N, _)

/-- The query block staged at `t` is the pair's whole [64, 2048] slab of the array the region finds. -/
theorem qblk_apply (c : Dev nD) (t : Fin cfg0.N) (d : Fin 64) (i : Fin 2048) :
    qblk m c t (ix3 (0 : Fin 1) d i) = V m c main_v0 (ix3 (pairOf t) d i) := by
  show V m c main_v0 (((cfg0.win 0).blk t).view.emb (ix3 (0 : Fin 1) d i)) = V m c main_v0 _
  refine congrArg _ (funext fun a => Fin.ext ?_)
  obtain ⟨h0, h1, h2⟩ := index_q t
  match a with
  | ⟨0, _⟩ =>
    show win0_0.index t 0 * 1 + 1 * 0 = t.val / 2
    omega
  | ⟨1, _⟩ =>
    show win0_0.index t 1 * 64 + 1 * d.val = d.val
    omega
  | ⟨2, _⟩ =>
    show win0_0.index t 2 * 2048 + 1 * i.val = i.val
    omega

/-- The key tile staged at `t` is the pair's slab restricted to the tile's half of the sequence. -/
theorem kblk_apply (c : Dev nD) (t : Fin cfg0.N) (d : Fin 64) (j : Fin 1024) :
    kblk m c t (ix3 (0 : Fin 1) d j) = V m c main_v1 (ix3 (pairOf t) d (posOf t j)) := by
  show V m c main_v1 (((cfg0.win 1).blk t).view.emb (ix3 (0 : Fin 1) d j)) = V m c main_v1 _
  refine congrArg _ (funext fun a => Fin.ext ?_)
  obtain ⟨h0, h1, h2⟩ := index_k t
  match a with
  | ⟨0, _⟩ =>
    show win0_1.index t 0 * 1 + 1 * 0 = t.val / 2
    omega
  | ⟨1, _⟩ =>
    show win0_1.index t 1 * 64 + 1 * d.val = d.val
    omega
  | ⟨2, _⟩ =>
    show win0_1.index t 2 * 1024 + 1 * j.val = t.val % 2 * 1024 + j.val
    omega

/-- The value tile staged at `t`, likewise. -/
theorem vblk_apply (c : Dev nD) (t : Fin cfg0.N) (d : Fin 64) (j : Fin 1024) :
    vblk m c t (ix3 (0 : Fin 1) d j) = V m c main_v2 (ix3 (pairOf t) d (posOf t j)) := by
  show V m c main_v2 (((cfg0.win 2).blk t).view.emb (ix3 (0 : Fin 1) d j)) = V m c main_v2 _
  refine congrArg _ (funext fun a => Fin.ext ?_)
  obtain ⟨h0, h1, h2⟩ := index_v t
  match a with
  | ⟨0, _⟩ =>
    show win0_2.index t 0 * 1 + 1 * 0 = t.val / 2
    omega
  | ⟨1, _⟩ =>
    show win0_2.index t 1 * 64 + 1 * d.val = d.val
    omega
  | ⟨2, _⟩ =>
    show win0_2.index t 2 * 1024 + 1 * j.val = t.val % 2 * 1024 + j.val
    omega

/-- The batch of a merged (batch, head) index. -/
def batchOf (p : Fin 64) : Fin 4 := ⟨p.val / 16, by have := p.isLt; omega⟩
/-- The head of a merged (batch, head) index. -/
def headOf (p : Fin 64) : Fin 16 := ⟨p.val % 16, by omega⟩

/-- The array the region finds for the query is the argument with its batch and head axes merged. -/
theorem V_q (c : Dev nD) :
    V m c main_v0 = shapeCast S64x64x2048 (m ((c : Thread nD τ).loc main_arg0)) shapeCasts_S4x16x64x2048_S64x64x2048 := by
  show StableHlo.after hostOps0 (fun b => m (c, b)) (Proc.devRef .tc main_v0) = _
  after_results
  rfl

theorem q_at (c : Dev nD) (p : Fin 64) (d : Fin 64) (i : Fin 2048) :
    V m c main_v0 (ix3 p d i) = m ((c : Thread nD τ).loc main_arg0) (ix4 (batchOf p) (headOf p) d i) := by
  rw [V_q]
  refine shapeCast_apply _ _ _ _ ?_
  show (S4x16x64x2048.rowMajor (ix4 (batchOf p) (headOf p) d i)).val = (S64x64x2048.rowMajor (ix3 p d i)).val
  rw [Shape.rowMajor_val_four, Shape.rowMajor_val_three]
  show ((p.val / 16 * 16 + p.val % 16) * 64 + d.val) * 2048 + i.val = (p.val * 64 + d.val) * 2048 + i.val
  omega

/-- The array the region finds for the key, likewise. -/
theorem V_k (c : Dev nD) :
    V m c main_v1 = shapeCast S64x64x2048 (m ((c : Thread nD τ).loc main_arg1)) shapeCasts_S4x16x64x2048_S64x64x2048 := by
  show StableHlo.after hostOps0 (fun b => m (c, b)) (Proc.devRef .tc main_v1) = _
  after_results
  rfl

theorem k_at (c : Dev nD) (p : Fin 64) (d : Fin 64) (i : Fin 2048) :
    V m c main_v1 (ix3 p d i) = m ((c : Thread nD τ).loc main_arg1) (ix4 (batchOf p) (headOf p) d i) := by
  rw [V_k]
  refine shapeCast_apply _ _ _ _ ?_
  show (S4x16x64x2048.rowMajor (ix4 (batchOf p) (headOf p) d i)).val = (S64x64x2048.rowMajor (ix3 p d i)).val
  rw [Shape.rowMajor_val_four, Shape.rowMajor_val_three]
  show ((p.val / 16 * 16 + p.val % 16) * 64 + d.val) * 2048 + i.val = (p.val * 64 + d.val) * 2048 + i.val
  omega

/-- The array the region finds for the value, likewise. -/
theorem V_v (c : Dev nD) :
    V m c main_v2 = shapeCast S64x64x2048 (m ((c : Thread nD τ).loc main_arg2)) shapeCasts_S4x16x64x2048_S64x64x2048 := by
  show StableHlo.after hostOps0 (fun b => m (c, b)) (Proc.devRef .tc main_v2) = _
  after_results
  rfl

theorem v_at (c : Dev nD) (p : Fin 64) (d : Fin 64) (i : Fin 2048) :
    V m c main_v2 (ix3 p d i) = m ((c : Thread nD τ).loc main_arg2) (ix4 (batchOf p) (headOf p) d i) := by
  rw [V_v]
  refine shapeCast_apply _ _ _ _ ?_
  show (S4x16x64x2048.rowMajor (ix4 (batchOf p) (headOf p) d i)).val = (S64x64x2048.rowMajor (ix3 p d i)).val
  rw [Shape.rowMajor_val_four, Shape.rowMajor_val_three]
  show ((p.val / 16 * 16 + p.val % 16) * 64 + d.val) * 2048 + i.val = (p.val * 64 + d.val) * 2048 + i.val
  omega

end Cert.KernelIdeal.Blocks

end
-- ==== Proof.KerFinal.lean ====
/-
  The kernel's result array, on real data.

  Every (batch, head) pair's output block is written back once, by the pair's second-tile point, and the blocks
  of the 64 pairs tile the merged [64, 64, 2048] array; so after the run that array holds, at pair `p`, feature `d`
  and position `i`, the attention output of pair `p`'s slabs. The host's last operation splits the merged axis
  back into batch and head, which sends `(b, h, d, i)` to pair `16 b + h`.

  The statement that an index lies in a point's block, and the use of the blocks' cover to name the whole array,
  are stated here for this kernel's output window and its own whole-array function.
-/
import proofs.«430736_j35820027248841_3_alg».proof.Proof.Gen.KernelIdeal.Frame
import proofs.«430736_j35820027248841_3_alg».proof.Proof.KerInv
import proofs.«430736_j35820027248841_3_alg».proof.Proof.KerBlocks
import proofs.«430736_j35820027248841_3_alg».proof.Proof.KerValue
import proofs.«430736_j35820027248841_3_alg».proof.Proof.Softmax
import proofs.«430736_j35820027248841_3_alg».proof.Proof.Slab
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Final

open Cert.KernelIdeal Cert.KernelIdeal.Gen Cert.KernelIdeal.Inv Cert.KernelIdeal.Blocks
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)
variable (c0 : ℝ) (hc0 : Ideal.ofBits .f32 0x3E000000#32 = (c0 : EReal))
variable (q k v : S4x16x64x2048.Idx → ℝ)

/-- The slab of a real array at a merged (batch, head) index. -/
def pairSlab (x : S4x16x64x2048.Idx → ℝ) (p : Fin 64) : Fin 64 → Fin 2048 → ℝ :=
  Cert.Attn.slab x (batchOf p) (headOf p)

/-- The kernel's result before the host splits the merged axis again: at pair `p`, feature `d`, position `i` the
    attention output of pair `p`'s slabs. -/
def merged : Vec Ideal S64x64x2048 .f32 := fun idx =>
  ((Cert.Attn.attnOut c0 (pairSlab q ⟨(idx 0).val, (idx 0).isLt⟩) (pairSlab k ⟨(idx 0).val, (idx 0).isLt⟩)
      (pairSlab v ⟨(idx 0).val, (idx 0).isLt⟩) ⟨(idx 1).val, (idx 1).isLt⟩ ⟨(idx 2).val, (idx 2).isLt⟩ : ℝ) : EReal)

/-- An index of the merged array lies in point `t`'s block iff each coordinate lies in the block's range on its axis. -/
theorem mem_block (t : Fin cfg0.N) (idx : S64x64x2048.Idx) :
    idx ∈ ((cfg0.win 3).blk t).view.set ↔
      ∀ a : Fin 3, win0_3.index t a * S1x64x2048.size a ≤ (idx a).val
        ∧ (idx a).val < win0_3.index t a * S1x64x2048.size a + S1x64x2048.size a := by
  show idx ∈ ((View.whole main_v3).slice (win0_3.rect t)).set ↔ _
  rw [View.set_slice_whole, Rect.mem_set_unit]
  exact Iff.rfl

/-- Every index of the merged array is written back: pair `p`'s slab by the second-tile point `2 p + 1`. -/
theorem covered (idx : S64x64x2048.Idx) :
    ∃ t : Fin cfg0.N, (cfg0.win 3).flush t = true ∧ idx ∈ ((cfg0.win 3).blk t).view.set := by
  have hp : (idx 0).val < 64 := (idx 0).isLt
  have hd : (idx 1).val < 64 := (idx 1).isLt
  have hi : (idx 2).val < 2048 := (idx 2).isLt
  let t : Fin cfg0.N := ⟨2 * (idx 0).val + 1, by rw [N128]; omega⟩
  have htv : t.val = 2 * (idx 0).val + 1 := rfl
  obtain ⟨h0, h1, h2⟩ := index_o t
  refine ⟨t, (flush0_3 t).mpr (by rw [htv]; omega), ?_⟩
  rw [mem_block]
  intro a
  match a with
  | ⟨0, _⟩ => show win0_3.index t (0 : Fin 3) * 1 ≤ (idx 0).val ∧ (idx 0).val < win0_3.index t (0 : Fin 3) * 1 + 1; omega
  | ⟨1, _⟩ => show win0_3.index t (1 : Fin 3) * 64 ≤ (idx 1).val ∧ (idx 1).val < win0_3.index t (1 : Fin 3) * 64 + 64; omega
  | ⟨2, _⟩ => show win0_3.index t (2 : Fin 3) * 2048 ≤ (idx 2).val ∧ (idx 2).val < win0_3.index t (2 : Fin 3) * 2048 + 2048; omega

section OnRealData
variable (c : Dev nD)
variable (hq : m ((c : Thread nD τ).loc main_arg0) = fun x => ((q x : ℝ) : EReal))
variable (hk : m ((c : Thread nD τ).loc main_arg1) = fun x => ((k x : ℝ) : EReal))
variable (hv : m ((c : Thread nD τ).loc main_arg2) = fun x => ((v x : ℝ) : EReal))
include hc0 hq hk hv

/-- At a second-tile point the output block reads, entry by entry, the attention output of the point's pair. -/
theorem block_second (t : Fin cfg0.N) (ht : t.val % 2 = 1) (d : Fin 64) (i : Fin 2048) :
    KerValue.outBlock (F := Ideal) (qblk m c (before t)) (kblk m c (before t)) (vblk m c (before t)) (kblk m c t) (vblk m c t)
        (ix3 (0 : Fin 1) d i)
      = ((Cert.Attn.attnOut c0 (pairSlab q (pairOf t)) (pairSlab k (pairOf t)) (pairSlab v (pairOf t)) d i : ℝ) : EReal) := by
  have hp : pairOf (before t) = pairOf t := Fin.ext (by show (t.val - 1) / 2 = t.val / 2; omega)
  have hlo : ∀ j : Fin 1024, posOf (before t) j = Cert.Attn.lo j := fun j =>
    Fin.ext (by show (t.val - 1) % 2 * 1024 + j.val = j.val; omega)
  have hhi : ∀ j : Fin 1024, posOf t j = Cert.Attn.hi j := fun j =>
    Fin.ext (by show t.val % 2 * 1024 + j.val = 1024 + j.val; omega)
  refine KerValue.outBlock_apply c0 hc0 (pairSlab q (pairOf t)) (pairSlab k (pairOf t)) (pairSlab v (pairOf t))
    (qblk m c (before t)) (kblk m c (before t)) (vblk m c (before t)) (kblk m c t) (vblk m c t) ?_ ?_ ?_ ?_ ?_ d i
  · intro d i; rw [qblk_apply, q_at, hq, hp]; rfl
  · intro d j; rw [kblk_apply, k_at, hk, hp, hlo]; rfl
  · intro d j; rw [vblk_apply, v_at, hv, hp, hlo]; rfl
  · intro d j; rw [kblk_apply, k_at, hk, hhi]; rfl
  · intro d j; rw [vblk_apply, v_at, hv, hhi]; rfl

/-- What a second-tile point writes back is its block of the merged result: the block of pair `t / 2` is that
    pair's whole [64, 2048] slab. -/
theorem flushed_eq (t : Fin cfg0.N) (hf : (cfg0.win 3).flush t = true) :
    (dats m 0 c).flushed 3 t = ((cfg0.win 3).blk t).view.read (Elt Ideal) (merged c0 q k v) := by
  have ht : t.val % 2 = 1 := (flush0_3 t).mp hf
  show (cfg0.win 3).cut (grid0.coords t) ((dats m 0 c).after 3 t) = _
  rw [after0_3, out_second m c t ht]
  have key : ∀ y' : S1x64x2048.Idx,
      KerValue.outBlock (F := Ideal) (qblk m c (before t)) (kblk m c (before t)) (vblk m c (before t)) (kblk m c t) (vblk m c t) y'
        = merged c0 q k v (((cfg0.win 3).blk t).view.emb y') := by
    intro y'
    obtain ⟨d, i, rfl⟩ : ∃ (d : Fin 64) (i : Fin 2048), y' = ix3 (0 : Fin 1) d i :=
      ⟨y' 1, y' 2, (eq_ix3 y').trans (congrArg (fun z : Fin 1 => ix3 z (y' 1) (y' 2))
        (Fin.ext (Nat.lt_one_iff.mp (y' 0).isLt) : (y' 0 : Fin 1) = (0 : Fin 1)))⟩
    rw [block_second m c0 hc0 q k v c hq hk hv t ht d i]
    obtain ⟨h0, h1, h2⟩ := index_o t
    have e0 : (⟨((((cfg0.win 3).blk t).view.emb (ix3 (0 : Fin 1) d i)) 0).val, ((((cfg0.win 3).blk t).view.emb (ix3 (0 : Fin 1) d i)) 0).isLt⟩ : Fin 64) = pairOf t :=
      Fin.ext (by show win0_3.index t 0 * 1 + 1 * 0 = t.val / 2; omega)
    have e1 : (⟨((((cfg0.win 3).blk t).view.emb (ix3 (0 : Fin 1) d i)) 1).val, ((((cfg0.win 3).blk t).view.emb (ix3 (0 : Fin 1) d i)) 1).isLt⟩ : Fin 64) = d :=
      Fin.ext (by show win0_3.index t 1 * 64 + 1 * d.val = d.val; omega)
    have e2 : (⟨((((cfg0.win 3).blk t).view.emb (ix3 (0 : Fin 1) d i)) 2).val, ((((cfg0.win 3).blk t).view.emb (ix3 (0 : Fin 1) d i)) 2).isLt⟩ : Fin 2048) = i :=
      Fin.ext (by show win0_3.index t 2 * 2048 + 1 * i.val = i.val; omega)
    unfold merged
    rw [e0, e1, e2]
  funext y
  rw [View.read_apply]
  exact key y

/-- After the run the output's array holds the merged result. -/
theorem final_array : (dats m 0 c).arrAt 3 cfg0.N = merged c0 q k v :=
  (dats m 0 c).arrAt_eq_of_cover 3 (merged c0 q k v) (fun t hf => flushed_eq m c0 hc0 q k v c hq hk hv t hf) covered

/-- The result buffer after the host's last operation: the merged result with its first axis split back into
    batch and head. -/
theorem result_eq :
    Pipeline.afterTail₀ cfgs (dats m) 0 (V0 m) [hostOps1] c main_v4
      = shapeCast S4x16x64x2048 (merged c0 q k v) shapeCasts_S64x64x2048_S4x16x64x2048 := by
  have hw : Pipeline.withArrays (cfgs 0).spec c (V0 m c) (fun w => (dats m 0 c).arrAt w (cfgs 0).N) (Proc.devRef .tc main_v3)
      = merged c0 q k v :=
    (Pipeline.withArrays_arr spec0 launch0.win.arr_inj c _ _ 3).trans (final_array m c0 hc0 q k v c hq hk hv)
  unfold Pipeline.afterTail₀
  show StableHlo.after hostOps1 _ (Proc.devRef .tc main_v4) = _
  after_results
  rw [hw]
  rfl

/-- The merged index of batch `b` and head `h`. -/
def mergeOf (b : Fin 4) (h : Fin 16) : Fin 64 := ⟨b.val * 16 + h.val, by have := b.isLt; have := h.isLt; omega⟩

/-- The result buffer at batch `b`, head `h`, feature `d`, position `i`: the attention output of the `(b, h)` slabs. -/
theorem result_at (b : Fin 4) (h : Fin 16) (d : Fin 64) (i : Fin 2048) :
    Pipeline.afterTail₀ cfgs (dats m) 0 (V0 m) [hostOps1] c main_v4 (ix4 b h d i)
      = ((Cert.Attn.attnOut c0 (Cert.Attn.slab q b h) (Cert.Attn.slab k b h) (Cert.Attn.slab v b h) d i : ℝ) : EReal) := by
  rw [result_eq m c0 hc0 q k v c hq hk hv]
  have hidx : shapeCast S4x16x64x2048 (merged c0 q k v) shapeCasts_S64x64x2048_S4x16x64x2048 (ix4 b h d i)
      = merged c0 q k v (ix3 (mergeOf b h) d i) := by
    refine shapeCast_apply _ _ _ _ ?_
    show (S64x64x2048.rowMajor (ix3 (mergeOf b h) d i)).val = (S4x16x64x2048.rowMajor (ix4 b h d i)).val
    rw [Shape.rowMajor_val_four, Shape.rowMajor_val_three]
    show ((b.val * 16 + h.val) * 64 + d.val) * 2048 + i.val = ((b.val * 16 + h.val) * 64 + d.val) * 2048 + i.val
    rfl
  rw [hidx]
  have hb : batchOf (mergeOf b h) = b := Fin.ext (by show (b.val * 16 + h.val) / 16 = b.val; have := h.isLt; omega)
  have hh : headOf (mergeOf b h) = h := Fin.ext (by show (b.val * 16 + h.val) % 16 = h.val; have := h.isLt; omega)
  show ((Cert.Attn.attnOut c0 (pairSlab q (mergeOf b h)) (pairSlab k (mergeOf b h)) (pairSlab v (mergeOf b h)) d i : ℝ) : EReal) = _
  unfold pairSlab
  rw [hb, hh]

end OnRealData

end Cert.KernelIdeal.Final

end
-- ==== Proof.LibFinite.lean ====
/-
  Real-valuedness calculus at the exact-arithmetic instance.

  An array of extended reals is *real-valued* when no element is an infinity; it is *positive* /
  *non-negative* when moreover every element is a positive / non-negative real. This module shows
  that the host program's operations keep arrays inside these classes: sums, differences and products
  of reals are real, a quotient by a positive real is real, an exponential is positive, a square root
  of a non-negative real is non-negative, a real power of a positive base is positive, a maximum of
  reals is real, and every re-indexing operation (broadcast, reshape, slice, concatenate, gather)
  only moves elements around. A finite sum of reals is real, which covers the additive reduction,
  the additive scatter and the matrix product.
-/
import Idealize.ShloMosaic.Lib.IdealHost
import Mathlib.Data.EReal.Basic
import Mathlib.Data.EReal.Operations
import Mathlib.Data.EReal.Inv
import Mathlib.Analysis.SpecialFunctions.Pow.Real
import Mathlib.Analysis.SpecialFunctions.Exp
import Mathlib.Analysis.SpecialFunctions.Sqrt
import Mathlib.Algebra.BigOperators.Group.Finset.Basic

namespace Cert.LibFinite

open Idealize.ShloMosaic
open scoped BigOperators

/-! ## The three classes -/

/-- Every element is a real number. -/
def AllReal {s : Shape} (v : FVec Ideal s .f32) : Prop := ∀ i, ∃ r : ℝ, v i = (r : EReal)
/-- Every element is a positive real number. -/
def AllPos {s : Shape} (v : FVec Ideal s .f32) : Prop := ∀ i, ∃ r : ℝ, 0 < r ∧ v i = (r : EReal)
/-- Every element is a non-negative real number. -/
def AllNonneg {s : Shape} (v : FVec Ideal s .f32) : Prop := ∀ i, ∃ r : ℝ, 0 ≤ r ∧ v i = (r : EReal)

theorem AllPos.allReal {s : Shape} {v : FVec Ideal s .f32} (h : AllPos v) : AllReal v :=
  fun i => let ⟨r, _, e⟩ := h i; ⟨r, e⟩
theorem AllPos.allNonneg {s : Shape} {v : FVec Ideal s .f32} (h : AllPos v) : AllNonneg v :=
  fun i => let ⟨r, hr, e⟩ := h i; ⟨r, hr.le, e⟩
theorem AllNonneg.allReal {s : Shape} {v : FVec Ideal s .f32} (h : AllNonneg v) : AllReal v :=
  fun i => let ⟨r, _, e⟩ := h i; ⟨r, e⟩

/-- A real-valued array is the coercion of an array of reals. -/
theorem AllReal.exists_eq_coe {s : Shape} {v : FVec Ideal s .f32} (h : AllReal v) :
    ∃ r : s.Idx → ℝ, v = fun i => (r i : EReal) := by
  choose r hr using h
  exact ⟨r, funext hr⟩

theorem allReal_coe {s : Shape} (r : s.Idx → ℝ) : AllReal (s := s) (fun i => (r i : EReal)) := fun i => ⟨r i, rfl⟩

/-- A class depends on the array only through its elements. -/
theorem AllReal.of_forall_mem {s t : Shape} {v : FVec Ideal s .f32} {w : FVec Ideal t .f32} (h : AllReal v)
    (hw : ∀ j, ∃ i, w j = v i) : AllReal w := fun j => by
  obtain ⟨i, e⟩ := hw j; rw [e]; exact h i
theorem AllPos.of_forall_mem {s t : Shape} {v : FVec Ideal s .f32} {w : FVec Ideal t .f32} (h : AllPos v)
    (hw : ∀ j, ∃ i, w j = v i) : AllPos w := fun j => by
  obtain ⟨i, e⟩ := hw j; rw [e]; exact h i
theorem AllNonneg.of_forall_mem {s t : Shape} {v : FVec Ideal s .f32} {w : FVec Ideal t .f32} (h : AllNonneg v)
    (hw : ∀ j, ∃ i, w j = v i) : AllNonneg w := fun j => by
  obtain ⟨i, e⟩ := hw j; rw [e]; exact h i

/-! ## Elementwise arithmetic -/

section Pointwise
variable {s : Shape}

theorem allReal_addf {a b : FVec Ideal s .f32} (ha : AllReal a) (hb : AllReal b) :
    AllReal (Idealize.ShloMosaic.addf a b) := fun i => by
  obtain ⟨x, hx⟩ := ha i; obtain ⟨y, hy⟩ := hb i
  exact ⟨x + y, by show a i + b i = _; rw [hx, hy, EReal.coe_add]⟩

theorem allNonneg_addf {a b : FVec Ideal s .f32} (ha : AllNonneg a) (hb : AllNonneg b) :
    AllNonneg (Idealize.ShloMosaic.addf a b) := fun i => by
  obtain ⟨x, hx0, hx⟩ := ha i; obtain ⟨y, hy0, hy⟩ := hb i
  exact ⟨x + y, add_nonneg hx0 hy0, by show a i + b i = _; rw [hx, hy, EReal.coe_add]⟩

theorem allPos_addf_nonneg_pos {a b : FVec Ideal s .f32} (ha : AllNonneg a) (hb : AllPos b) :
    AllPos (Idealize.ShloMosaic.addf a b) := fun i => by
  obtain ⟨x, hx0, hx⟩ := ha i; obtain ⟨y, hy0, hy⟩ := hb i
  exact ⟨x + y, add_pos_of_nonneg_of_pos hx0 hy0, by show a i + b i = _; rw [hx, hy, EReal.coe_add]⟩

theorem allPos_addf_pos_nonneg {a b : FVec Ideal s .f32} (ha : AllPos a) (hb : AllNonneg b) :
    AllPos (Idealize.ShloMosaic.addf a b) := fun i => by
  obtain ⟨x, hx0, hx⟩ := ha i; obtain ⟨y, hy0, hy⟩ := hb i
  exact ⟨x + y, add_pos_of_pos_of_nonneg hx0 hy0, by show a i + b i = _; rw [hx, hy, EReal.coe_add]⟩

theorem allPos_addf {a b : FVec Ideal s .f32} (ha : AllPos a) (hb : AllPos b) :
    AllPos (Idealize.ShloMosaic.addf a b) := allPos_addf_pos_nonneg ha hb.allNonneg

theorem allReal_subf {a b : FVec Ideal s .f32} (ha : AllReal a) (hb : AllReal b) :
    AllReal (Idealize.ShloMosaic.subf a b) := fun i => by
  obtain ⟨x, hx⟩ := ha i; obtain ⟨y, hy⟩ := hb i
  exact ⟨x - y, by show a i - b i = _; rw [hx, hy, EReal.coe_sub]⟩

theorem allReal_mulf {a b : FVec Ideal s .f32} (ha : AllReal a) (hb : AllReal b) :
    AllReal (Idealize.ShloMosaic.mulf a b) := fun i => by
  obtain ⟨x, hx⟩ := ha i; obtain ⟨y, hy⟩ := hb i
  exact ⟨x * y, by show a i * b i = _; rw [hx, hy, EReal.coe_mul]⟩

theorem allNonneg_mulf {a b : FVec Ideal s .f32} (ha : AllNonneg a) (hb : AllNonneg b) :
    AllNonneg (Idealize.ShloMosaic.mulf a b) := fun i => by
  obtain ⟨x, hx0, hx⟩ := ha i; obtain ⟨y, hy0, hy⟩ := hb i
  exact ⟨x * y, mul_nonneg hx0 hy0, by show a i * b i = _; rw [hx, hy, EReal.coe_mul]⟩

theorem allPos_mulf {a b : FVec Ideal s .f32} (ha : AllPos a) (hb : AllPos b) :
    AllPos (Idealize.ShloMosaic.mulf a b) := fun i => by
  obtain ⟨x, hx0, hx⟩ := ha i; obtain ⟨y, hy0, hy⟩ := hb i
  exact ⟨x * y, mul_pos hx0 hy0, by show a i * b i = _; rw [hx, hy, EReal.coe_mul]⟩

/-- A square of a real-valued array is non-negative. -/
theorem allNonneg_mulf_self {a : FVec Ideal s .f32} (ha : AllReal a) :
    AllNonneg (Idealize.ShloMosaic.mulf a a) := fun i => by
  obtain ⟨x, hx⟩ := ha i
  exact ⟨x * x, mul_self_nonneg x, by show a i * a i = _; rw [hx, EReal.coe_mul]⟩

theorem allReal_negf {a : FVec Ideal s .f32} (ha : AllReal a) : AllReal (Host.negf a) := fun i => by
  obtain ⟨x, hx⟩ := ha i
  exact ⟨-x, by show -(a i) = _; rw [hx, EReal.coe_neg]⟩

/-! ### Quotient by a positive divisor -/

theorem div_coe_pos (x : EReal) {y : ℝ} (hy : 0 < y) : Ideal.div x (y : EReal) = x * ((1 / y : ℝ) : EReal) :=
  Ideal.div_coe hy.ne' x

theorem allReal_divf {a b : FVec Ideal s .f32} (ha : AllReal a) (hb : AllPos b) : AllReal (Host.divf a b) := fun i => by
  obtain ⟨x, hx⟩ := ha i; obtain ⟨y, hy0, hy⟩ := hb i
  exact ⟨x * (1 / y), by show Ideal.div (a i) (b i) = _; rw [hx, hy, div_coe_pos _ hy0, EReal.coe_mul]⟩

theorem allNonneg_divf {a b : FVec Ideal s .f32} (ha : AllNonneg a) (hb : AllPos b) : AllNonneg (Host.divf a b) := fun i => by
  obtain ⟨x, hx0, hx⟩ := ha i; obtain ⟨y, hy0, hy⟩ := hb i
  exact ⟨x * (1 / y), mul_nonneg hx0 (one_div_pos.2 hy0).le,
    by show Ideal.div (a i) (b i) = _; rw [hx, hy, div_coe_pos _ hy0, EReal.coe_mul]⟩

theorem allPos_divf {a b : FVec Ideal s .f32} (ha : AllPos a) (hb : AllPos b) : AllPos (Host.divf a b) := fun i => by
  obtain ⟨x, hx0, hx⟩ := ha i; obtain ⟨y, hy0, hy⟩ := hb i
  exact ⟨x * (1 / y), mul_pos hx0 (one_div_pos.2 hy0),
    by show Ideal.div (a i) (b i) = _; rw [hx, hy, div_coe_pos _ hy0, EReal.coe_mul]⟩

/-! ### Exponential, square root, power -/

theorem allPos_exp {a : FVec Ideal s .f32} (ha : AllReal a) : AllPos (Host.exp a) := fun i => by
  obtain ⟨x, hx⟩ := ha i
  exact ⟨Real.exp x, Real.exp_pos x, by show Ideal.exp (a i) = _; rw [hx, Ideal.exp_coe]⟩

theorem sqrt_coe_nonneg {x : ℝ} (hx : 0 ≤ x) : Ideal.sqrt (x : EReal) = (Real.sqrt x : EReal) := by
  rw [Ideal.sqrt_coe, if_neg (not_lt.2 hx)]

theorem allNonneg_sqrt {a : FVec Ideal s .f32} (ha : AllNonneg a) : AllNonneg (Host.sqrt a) := fun i => by
  obtain ⟨x, hx0, hx⟩ := ha i
  exact ⟨Real.sqrt x, Real.sqrt_nonneg x, by show Ideal.sqrt (a i) = _; rw [hx, sqrt_coe_nonneg hx0]⟩

theorem allPos_sqrt {a : FVec Ideal s .f32} (ha : AllPos a) : AllPos (Host.sqrt a) := fun i => by
  obtain ⟨x, hx0, hx⟩ := ha i
  exact ⟨Real.sqrt x, Real.sqrt_pos.2 hx0, by show Ideal.sqrt (a i) = _; rw [hx, sqrt_coe_nonneg hx0.le]⟩

/-- A real power of a positive base is positive. -/
theorem allPos_powf {a b : FVec Ideal s .f32} (ha : AllPos a) (hb : AllReal b) : AllPos (Host.powf a b) := fun i => by
  obtain ⟨x, hx0, hx⟩ := ha i; obtain ⟨y, hy⟩ := hb i
  exact ⟨Real.rpow x y, Real.rpow_pos_of_pos hx0 y, by show Ideal.pow (a i) (b i) = _; rw [hx, hy, Ideal.pow_coe_coe]⟩

/-- A real power of a real base is real (the real power function is total). -/
theorem allReal_powf {a b : FVec Ideal s .f32} (ha : AllReal a) (hb : AllReal b) : AllReal (Host.powf a b) := fun i => by
  obtain ⟨x, hx⟩ := ha i; obtain ⟨y, hy⟩ := hb i
  exact ⟨Real.rpow x y, by show Ideal.pow (a i) (b i) = _; rw [hx, hy, Ideal.pow_coe_coe]⟩

theorem allNonneg_powf {a b : FVec Ideal s .f32} (ha : AllNonneg a) (hb : AllReal b) : AllNonneg (Host.powf a b) := fun i => by
  obtain ⟨x, hx0, hx⟩ := ha i; obtain ⟨y, hy⟩ := hb i
  exact ⟨Real.rpow x y, Real.rpow_nonneg hx0 y, by show Ideal.pow (a i) (b i) = _; rw [hx, hy, Ideal.pow_coe_coe]⟩

/-! ### Maximum -/

theorem coe_max_real (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

theorem allReal_maximumf {a b : FVec Ideal s .f32} (ha : AllReal a) (hb : AllReal b) :
    AllReal (Idealize.ShloMosaic.maximumf a b) := fun i => by
  obtain ⟨x, hx⟩ := ha i; obtain ⟨y, hy⟩ := hb i
  exact ⟨max x y, by show max (a i) (b i) = _; rw [hx, hy, coe_max_real]⟩

theorem allPos_maximumf_left {a b : FVec Ideal s .f32} (ha : AllPos a) (hb : AllReal b) :
    AllPos (Idealize.ShloMosaic.maximumf a b) := fun i => by
  obtain ⟨x, hx0, hx⟩ := ha i; obtain ⟨y, hy⟩ := hb i
  exact ⟨max x y, lt_max_of_lt_left hx0, by show max (a i) (b i) = _; rw [hx, hy, coe_max_real]⟩

theorem allPos_maximumf_right {a b : FVec Ideal s .f32} (ha : AllReal a) (hb : AllPos b) :
    AllPos (Idealize.ShloMosaic.maximumf a b) := fun i => by
  obtain ⟨x, hx⟩ := ha i; obtain ⟨y, hy0, hy⟩ := hb i
  exact ⟨max x y, lt_max_of_lt_right hy0, by show max (a i) (b i) = _; rw [hx, hy, coe_max_real]⟩

theorem allNonneg_maximumf_left {a b : FVec Ideal s .f32} (ha : AllNonneg a) (hb : AllReal b) :
    AllNonneg (Idealize.ShloMosaic.maximumf a b) := fun i => by
  obtain ⟨x, hx0, hx⟩ := ha i; obtain ⟨y, hy⟩ := hb i
  exact ⟨max x y, le_max_of_le_left hx0, by show max (a i) (b i) = _; rw [hx, hy, coe_max_real]⟩

/-- The rectifier: a maximum with a non-negative array (with zero) is non-negative. -/
theorem allNonneg_maximumf_right {a b : FVec Ideal s .f32} (ha : AllReal a) (hb : AllNonneg b) :
    AllNonneg (Idealize.ShloMosaic.maximumf a b) := fun i => by
  obtain ⟨x, hx⟩ := ha i; obtain ⟨y, hy0, hy⟩ := hb i
  exact ⟨max x y, le_max_of_le_right hy0, by show max (a i) (b i) = _; rw [hx, hy, coe_max_real]⟩

/-- A maximum with minus infinity on the left is the right operand. -/
theorem allReal_maximumf_bot_left {a b : FVec Ideal s .f32} (ha : ∀ i, a i = ⊥) (hb : AllReal b) :
    AllReal (Idealize.ShloMosaic.maximumf a b) := fun i => by
  obtain ⟨y, hy⟩ := hb i
  exact ⟨y, by show max (a i) (b i) = _; rw [ha i, hy, max_eq_right bot_le]⟩

/-! ### Selection -/

theorem allReal_select {c : IVec s 1} {a b : FVec Ideal s .f32} (ha : AllReal a) (hb : AllReal b) :
    AllReal (Idealize.ShloMosaic.select c a b) := fun i => by
  show ∃ r : ℝ, Scalar.select (c i) (a i) (b i) = _
  unfold Scalar.select; split
  · exact ha i
  · exact hb i

theorem allPos_select {c : IVec s 1} {a b : FVec Ideal s .f32} (ha : AllPos a) (hb : AllPos b) :
    AllPos (Idealize.ShloMosaic.select c a b) := fun i => by
  show ∃ r : ℝ, 0 < r ∧ Scalar.select (c i) (a i) (b i) = _
  unfold Scalar.select; split
  · exact ha i
  · exact hb i

theorem allNonneg_select {c : IVec s 1} {a b : FVec Ideal s .f32} (ha : AllNonneg a) (hb : AllNonneg b) :
    AllNonneg (Idealize.ShloMosaic.select c a b) := fun i => by
  show ∃ r : ℝ, 0 ≤ r ∧ Scalar.select (c i) (a i) (b i) = _
  unfold Scalar.select; split
  · exact ha i
  · exact hb i

/-- A selection whose condition holds everywhere is its first branch; one whose condition fails everywhere, its second. -/
theorem select_eq_left {α : Type} {c : IVec s 1} (hc : ∀ i, c i = 1) (a b : s.Idx → α) :
    Idealize.ShloMosaic.select c a b = a := funext fun i => by
  show Scalar.select (c i) (a i) (b i) = a i
  unfold Scalar.select; rw [if_pos (hc i)]
theorem select_eq_right {α : Type} {c : IVec s 1} (hc : ∀ i, c i ≠ 1) (a b : s.Idx → α) :
    Idealize.ShloMosaic.select c a b = b := funext fun i => by
  show Scalar.select (c i) (a i) (b i) = b i
  unfold Scalar.select; rw [if_neg (hc i)]

theorem allReal_select_left {c : IVec s 1} {a b : FVec Ideal s .f32} (hc : ∀ i, c i = 1) (ha : AllReal a) :
    AllReal (Idealize.ShloMosaic.select c a b) := by rw [select_eq_left hc]; exact ha
theorem allPos_select_left {c : IVec s 1} {a b : FVec Ideal s .f32} (hc : ∀ i, c i = 1) (ha : AllPos a) :
    AllPos (Idealize.ShloMosaic.select c a b) := by rw [select_eq_left hc]; exact ha
theorem allNonneg_select_left {c : IVec s 1} {a b : FVec Ideal s .f32} (hc : ∀ i, c i = 1) (ha : AllNonneg a) :
    AllNonneg (Idealize.ShloMosaic.select c a b) := by rw [select_eq_left hc]; exact ha

/-- An integer converted to a float is real. -/
theorem allReal_sitofp {w : Nat} (x : IVec s w) : AllReal (Idealize.ShloMosaic.sitofp (F := Ideal) .f32 x) :=
  fun i => ⟨((x i).toInt : ℝ), rfl⟩

end Pointwise

/-! ## Re-indexing operations

Each of these reads every result element off some operand element, so it preserves all three classes. -/

section Reindex
variable {s t : Shape}

theorem allReal_broadcastInDim (dims : Fin s.rank → Fin t.rank) (h : s.BroadcastsInDim t dims) {x : FVec Ideal s .f32}
    (hx : AllReal x) : AllReal (broadcastInDim t dims h x) := fun _ => hx _
theorem allPos_broadcastInDim (dims : Fin s.rank → Fin t.rank) (h : s.BroadcastsInDim t dims) {x : FVec Ideal s .f32}
    (hx : AllPos x) : AllPos (broadcastInDim t dims h x) := fun _ => hx _
theorem allNonneg_broadcastInDim (dims : Fin s.rank → Fin t.rank) (h : s.BroadcastsInDim t dims) {x : FVec Ideal s .f32}
    (hx : AllNonneg x) : AllNonneg (broadcastInDim t dims h x) := fun _ => hx _

/-- A broadcast of an array that is minus infinity everywhere is minus infinity everywhere. -/
theorem broadcastInDim_bot (dims : Fin s.rank → Fin t.rank) (h : s.BroadcastsInDim t dims) {x : FVec Ideal s .f32}
    (hx : ∀ i, x i = ⊥) : ∀ j, broadcastInDim t dims h x j = ⊥ := fun _ => hx _

theorem allReal_shapeCast (h : s.ShapeCasts t) {x : FVec Ideal s .f32} (hx : AllReal x) : AllReal (shapeCast t x h) :=
  fun _ => hx _
theorem allPos_shapeCast (h : s.ShapeCasts t) {x : FVec Ideal s .f32} (hx : AllPos x) : AllPos (shapeCast t x h) :=
  fun _ => hx _
theorem allNonneg_shapeCast (h : s.ShapeCasts t) {x : FVec Ideal s .f32} (hx : AllNonneg x) :
    AllNonneg (shapeCast t x h) := fun _ => hx _

theorem allReal_extractStridedSlice (off : Fin s.rank → Nat) (h : s.Slices off t) {x : FVec Ideal s .f32}
    (hx : AllReal x) : AllReal (extractStridedSlice t off x h) := fun _ => hx _
theorem allPos_extractStridedSlice (off : Fin s.rank → Nat) (h : s.Slices off t) {x : FVec Ideal s .f32}
    (hx : AllPos x) : AllPos (extractStridedSlice t off x h) := fun _ => hx _
theorem allNonneg_extractStridedSlice (off : Fin s.rank → Nat) (h : s.Slices off t) {x : FVec Ideal s .f32}
    (hx : AllNonneg x) : AllNonneg (extractStridedSlice t off x h) := fun _ => hx _

/-- A gather reads each result element off the operand (at a clamped index): no fill value. -/
theorem allReal_gather {si : Shape} {w : Nat} (d : GatherDims s si t) {x : FVec Ideal s .f32} (idx : IVec si w)
    (hx : AllReal x) : AllReal (Host.gather d x idx) := fun _ => hx _
theorem allPos_gather {si : Shape} {w : Nat} (d : GatherDims s si t) {x : FVec Ideal s .f32} (idx : IVec si w)
    (hx : AllPos x) : AllPos (Host.gather d x idx) := fun _ => hx _
theorem allNonneg_gather {si : Shape} {w : Nat} (d : GatherDims s si t) {x : FVec Ideal s .f32} (idx : IVec si w)
    (hx : AllNonneg x) : AllNonneg (Host.gather d x idx) := fun _ => hx _

end Reindex

/-! ## Constants

A 32-bit pattern whose exponent field is not all ones denotes a real number; with a clear sign bit and a
non-zero exponent field, a positive one. -/

section Constants

/-- What a 32-bit pattern denotes, by its fields. -/
theorem ofBits_f32_cases (b : BitVec 32) :
    Ideal.ofBits .f32 b =
      if (b.extractLsb' 23 8).toNat = 255 then
        (if (b.extractLsb' 0 23).toNat = 0 then (if (b.extractLsb' 31 1 == 1#1) then ⊥ else ⊤) else ⊥)
      else if (b.extractLsb' 23 8).toNat = 0 then
        (((if (b.extractLsb' 31 1 == 1#1) then (-1 : ℝ) else 1) * ((b.extractLsb' 0 23).toNat : ℝ)
          * (2 : ℝ) ^ (1 - (2 ^ (8 - 1) - 1 : Int) - (23 : Nat) : Int) : ℝ) : EReal)
      else
        (((if (b.extractLsb' 31 1 == 1#1) then (-1 : ℝ) else 1) * ((2 ^ 23 + (b.extractLsb' 0 23).toNat : Nat) : ℝ)
          * (2 : ℝ) ^ ((((b.extractLsb' 23 8).toNat : Nat) : Int) - (2 ^ (8 - 1) - 1 : Int) - (23 : Nat)) : ℝ) : EReal) := rfl

theorem ofBits_f32_real (b : BitVec 32) (h : (b.extractLsb' 23 8).toNat ≠ 255) :
    ∃ r : ℝ, Ideal.ofBits .f32 b = (r : EReal) := by
  rw [ofBits_f32_cases, if_neg h]
  split <;> exact ⟨_, rfl⟩

theorem ofBits_f32_pos (b : BitVec 32) (hs : (b.extractLsb' 31 1 == 1#1) = false)
    (h : (b.extractLsb' 23 8).toNat ≠ 255) (h0 : (b.extractLsb' 23 8).toNat ≠ 0) :
    ∃ r : ℝ, 0 < r ∧ Ideal.ofBits .f32 b = (r : EReal) := by
  rw [ofBits_f32_cases, if_neg h, if_neg h0, hs]
  refine ⟨_, ?_, rfl⟩
  simp only [Bool.false_eq_true, if_false]
  positivity

/-- The pattern of minus infinity. -/
theorem ofBits_f32_FF800000 : Ideal.ofBits .f32 0xFF800000#32 = ⊥ := by
  rw [ofBits_f32_cases, if_pos (by decide), if_pos (by decide), if_pos (by decide)]

theorem allReal_constant (s : Shape) (b : BitVec 32) (h : (b.extractLsb' 23 8).toNat ≠ 255) :
    AllReal (constant (F := Ideal) s .f32 b) := fun _ => ofBits_f32_real b h

theorem allPos_constant (s : Shape) (b : BitVec 32) (hs : (b.extractLsb' 31 1 == 1#1) = false)
    (h : (b.extractLsb' 23 8).toNat ≠ 255) (h0 : (b.extractLsb' 23 8).toNat ≠ 0) :
    AllPos (constant (F := Ideal) s .f32 b) := fun _ => ofBits_f32_pos b hs h h0

/-- The zero pattern. -/
theorem allNonneg_constant_00000000 (s : Shape) : AllNonneg (constant (F := Ideal) s .f32 0x00000000#32) :=
  fun _ => ⟨0, le_rfl, by show Ideal.ofBits .f32 0x00000000#32 = _; rw [Ideal.ofBits_zero_f32, EReal.coe_zero]⟩
theorem allReal_constant_00000000 (s : Shape) : AllReal (constant (F := Ideal) s .f32 0x00000000#32) :=
  (allNonneg_constant_00000000 s).allReal

/-- Minus one half. -/
theorem allReal_constant_BF000000 (s : Shape) : AllReal (constant (F := Ideal) s .f32 0xBF000000#32) :=
  allReal_constant s _ (by decide)

/-- Minus infinity. -/
theorem constant_FF800000 (s : Shape) (i : s.Idx) : constant (F := Ideal) s .f32 0xFF800000#32 i = ⊥ :=
  ofBits_f32_FF800000

theorem allPos_constant_3F800000 (s : Shape) : AllPos (constant (F := Ideal) s .f32 0x3F800000#32) :=
  allPos_constant s _ (by decide) (by decide) (by decide)
theorem allPos_constant_2B8CBCCC (s : Shape) : AllPos (constant (F := Ideal) s .f32 0x2B8CBCCC#32) :=
  allPos_constant s _ (by decide) (by decide) (by decide)
theorem allPos_constant_41200000 (s : Shape) : AllPos (constant (F := Ideal) s .f32 0x41200000#32) :=
  allPos_constant s _ (by decide) (by decide) (by decide)
theorem allPos_constant_3F000000 (s : Shape) : AllPos (constant (F := Ideal) s .f32 0x3F000000#32) :=
  allPos_constant s _ (by decide) (by decide) (by decide)
theorem allPos_constant_3727C5AC (s : Shape) : AllPos (constant (F := Ideal) s .f32 0x3727C5AC#32) :=
  allPos_constant s _ (by decide) (by decide) (by decide)
theorem allPos_constant_47C35000 (s : Shape) : AllPos (constant (F := Ideal) s .f32 0x47C35000#32) :=
  allPos_constant s _ (by decide) (by decide) (by decide)

/-! The same constants broadcast. -/

variable {s t : Shape} (dims : Fin s.rank → Fin t.rank) (h : s.BroadcastsInDim t dims)

theorem allNonneg_broadcast_constant_00000000 :
    AllNonneg (broadcastInDim t dims h (constant (F := Ideal) s .f32 0x00000000#32)) :=
  allNonneg_broadcastInDim dims h (allNonneg_constant_00000000 s)
theorem allReal_broadcast_constant_00000000 :
    AllReal (broadcastInDim t dims h (constant (F := Ideal) s .f32 0x00000000#32)) :=
  allReal_broadcastInDim dims h (allReal_constant_00000000 s)
theorem allReal_broadcast_constant_BF000000 :
    AllReal (broadcastInDim t dims h (constant (F := Ideal) s .f32 0xBF000000#32)) :=
  allReal_broadcastInDim dims h (allReal_constant_BF000000 s)
theorem broadcast_constant_FF800000 (j : t.Idx) :
    broadcastInDim t dims h (constant (F := Ideal) s .f32 0xFF800000#32) j = ⊥ :=
  broadcastInDim_bot dims h (constant_FF800000 s) j
theorem allPos_broadcast_constant_3F800000 :
    AllPos (broadcastInDim t dims h (constant (F := Ideal) s .f32 0x3F800000#32)) :=
  allPos_broadcastInDim dims h (allPos_constant_3F800000 s)
theorem allPos_broadcast_constant_2B8CBCCC :
    AllPos (broadcastInDim t dims h (constant (F := Ideal) s .f32 0x2B8CBCCC#32)) :=
  allPos_broadcastInDim dims h (allPos_constant_2B8CBCCC s)
theorem allPos_broadcast_constant_41200000 :
    AllPos (broadcastInDim t dims h (constant (F := Ideal) s .f32 0x41200000#32)) :=
  allPos_broadcastInDim dims h (allPos_constant_41200000 s)
theorem allPos_broadcast_constant_3F000000 :
    AllPos (broadcastInDim t dims h (constant (F := Ideal) s .f32 0x3F000000#32)) :=
  allPos_broadcastInDim dims h (allPos_constant_3F000000 s)
theorem allPos_broadcast_constant_3727C5AC :
    AllPos (broadcastInDim t dims h (constant (F := Ideal) s .f32 0x3727C5AC#32)) :=
  allPos_broadcastInDim dims h (allPos_constant_3727C5AC s)
theorem allPos_broadcast_constant_47C35000 :
    AllPos (broadcastInDim t dims h (constant (F := Ideal) s .f32 0x47C35000#32)) :=
  allPos_broadcastInDim dims h (allPos_constant_47C35000 s)

end Constants

/-! ## Finite sums

A finite sum of reals is real; of non-negative reals, non-negative; of positive reals over a non-empty
index set, positive. -/

section Sums
variable {ι : Type}

theorem sum_real (S : Finset ι) (f : ι → EReal) (hf : ∀ i ∈ S, ∃ r : ℝ, f i = (r : EReal)) :
    ∃ r : ℝ, ∑ i ∈ S, f i = (r : EReal) := by
  induction S using Finset.cons_induction with
  | empty => exact ⟨0, by rw [Finset.sum_empty, EReal.coe_zero]⟩
  | cons a S ha ih =>
    obtain ⟨x, hx⟩ := hf a (Finset.mem_cons_self a S)
    obtain ⟨y, hy⟩ := ih (fun i hi => hf i (Finset.mem_cons.2 (Or.inr hi)))
    exact ⟨x + y, by rw [Finset.sum_cons, hx, hy, EReal.coe_add]⟩

theorem sum_nonneg_real (S : Finset ι) (f : ι → EReal) (hf : ∀ i ∈ S, ∃ r : ℝ, 0 ≤ r ∧ f i = (r : EReal)) :
    ∃ r : ℝ, 0 ≤ r ∧ ∑ i ∈ S, f i = (r : EReal) := by
  induction S using Finset.cons_induction with
  | empty => exact ⟨0, le_rfl, by rw [Finset.sum_empty, EReal.coe_zero]⟩
  | cons a S ha ih =>
    obtain ⟨x, hx0, hx⟩ := hf a (Finset.mem_cons_self a S)
    obtain ⟨y, hy0, hy⟩ := ih (fun i hi => hf i (Finset.mem_cons.2 (Or.inr hi)))
    exact ⟨x + y, add_nonneg hx0 hy0, by rw [Finset.sum_cons, hx, hy, EReal.coe_add]⟩

theorem sum_pos_real (S : Finset ι) (hS : S.Nonempty) (f : ι → EReal)
    (hf : ∀ i ∈ S, ∃ r : ℝ, 0 < r ∧ f i = (r : EReal)) : ∃ r : ℝ, 0 < r ∧ ∑ i ∈ S, f i = (r : EReal) := by
  classical
  obtain ⟨a, ha⟩ := hS
  obtain ⟨x, hx0, hx⟩ := hf a ha
  obtain ⟨y, hy0, hy⟩ := sum_nonneg_real (S.erase a) f (fun i hi => by
    obtain ⟨r, hr, e⟩ := hf i (Finset.mem_of_mem_erase hi); exact ⟨r, hr.le, e⟩)
  exact ⟨x + y, add_pos_of_pos_of_nonneg hx0 hy0, by rw [← Finset.add_sum_erase S f ha, hx, hy, EReal.coe_add]⟩

end Sums

/-! ## The additive reduction, the additive scatter, the matrix product -/

section Contractions

/-- The additive reduction: the initial value plus the sum of the elements that reduce to the index. -/
theorem allReal_reduceAdd {s t u : Shape} {axes : List (Fin s.rank)} {x : FVec Ideal s .f32}
    {init : FVec Ideal u .f32} {h : s.ReducesTo axes t} {hu : 0 < u.numel} (hx : AllReal x) (hinit : AllReal init) :
    AllReal (Host.reduceAdd x init h hu) := fun j => by
  obtain ⟨a, ha⟩ := hinit (Shape.Idx.first hu)
  obtain ⟨b, hb⟩ := sum_real (Finset.univ.filter fun i => h.drop i = j) x (fun i _ => hx i)
  exact ⟨a + b, by
    show init (Shape.Idx.first hu) + ∑ i ∈ Finset.univ.filter (fun i => h.drop i = j), x i = _
    rw [ha, hb, EReal.coe_add]⟩

theorem allNonneg_reduceAdd {s t u : Shape} {axes : List (Fin s.rank)} {x : FVec Ideal s .f32}
    {init : FVec Ideal u .f32} {h : s.ReducesTo axes t} {hu : 0 < u.numel} (hx : AllNonneg x) (hinit : AllNonneg init) :
    AllNonneg (Host.reduceAdd x init h hu) := fun j => by
  obtain ⟨a, ha0, ha⟩ := hinit (Shape.Idx.first hu)
  obtain ⟨b, hb0, hb⟩ := sum_nonneg_real (Finset.univ.filter fun i => h.drop i = j) x (fun i _ => hx i)
  exact ⟨a + b, add_nonneg ha0 hb0, by
    show init (Shape.Idx.first hu) + ∑ i ∈ Finset.univ.filter (fun i => h.drop i = j), x i = _
    rw [ha, hb, EReal.coe_add]⟩

/-- A sum of positive elements from a non-negative initial value is positive when every result index has an
    element reducing to it. -/
theorem allPos_reduceAdd {s t u : Shape} {axes : List (Fin s.rank)} {x : FVec Ideal s .f32}
    {init : FVec Ideal u .f32} {h : s.ReducesTo axes t} {hu : 0 < u.numel} (hx : AllPos x) (hinit : AllNonneg init)
    (hne : ∀ j, ∃ i, h.drop i = j) : AllPos (Host.reduceAdd x init h hu) := fun j => by
  obtain ⟨a, ha0, ha⟩ := hinit (Shape.Idx.first hu)
  obtain ⟨i0, hi0⟩ := hne j
  obtain ⟨b, hb0, hb⟩ := sum_pos_real (Finset.univ.filter fun i => h.drop i = j)
    ⟨i0, Finset.mem_filter.2 ⟨Finset.mem_univ _, hi0⟩⟩ x (fun i _ => hx i)
  exact ⟨a + b, add_pos_of_nonneg_of_pos ha0 hb0, by
    show init (Shape.Idx.first hu) + ∑ i ∈ Finset.univ.filter (fun i => h.drop i = j), x i = _
    rw [ha, hb, EReal.coe_add]⟩

/-- Reducing one axis of positive size onto a result of positive rank: every result index is reached. -/
theorem drop_surjective_single {s t : Shape} {a : Fin s.rank} (h : s.ReducesTo [a] t) (ht : 0 < t.rank)
    (ha : 0 < s.size a) (j : t.Idx) : ∃ i, h.drop i = j := by
  have hR : s.Reduces [a] t := ⟨h.1, ht, h.2⟩
  exact ⟨hR.lift j ⟨0, ha⟩, by rw [Shape.ReducesTo.drop_eq_drop h hR]; exact hR.drop_lift j _⟩

/-- The additive scatter: each operand element plus a finite sum of update elements. -/
theorem allReal_scatterAdd {s si su : Shape} {w : Nat} (d : ScatterDims s si su) {x : FVec Ideal s .f32}
    (idx : IVec si w) {upd : FVec Ideal su .f32} (hx : AllReal x) (hupd : AllReal upd) :
    AllReal (Host.scatterAdd d x idx upd) := fun i => by
  obtain ⟨a, ha⟩ := hx i
  obtain ⟨b, hb⟩ := sum_real (Finset.univ.filter fun j => d.resultIdx? j idx = some i) upd (fun j _ => hupd j)
  exact ⟨a + b, by
    show x i + ∑ j ∈ Finset.univ.filter (fun j => d.resultIdx? j idx = some i), upd j = _
    rw [ha, hb, EReal.coe_add]⟩

theorem allNonneg_scatterAdd {s si su : Shape} {w : Nat} (d : ScatterDims s si su) {x : FVec Ideal s .f32}
    (idx : IVec si w) {upd : FVec Ideal su .f32} (hx : AllNonneg x) (hupd : AllNonneg upd) :
    AllNonneg (Host.scatterAdd d x idx upd) := fun i => by
  obtain ⟨a, ha0, ha⟩ := hx i
  obtain ⟨b, hb0, hb⟩ := sum_nonneg_real (Finset.univ.filter fun j => d.resultIdx? j idx = some i) upd (fun j _ => hupd j)
  exact ⟨a + b, add_nonneg ha0 hb0, by
    show x i + ∑ j ∈ Finset.univ.filter (fun j => d.resultIdx? j idx = some i), upd j = _
    rw [ha, hb, EReal.coe_add]⟩

/-- The matrix product: a finite sum of products. -/
theorem allReal_dotGeneral {sl sr so : Shape} (d : DotDims sl sr so) (prec : Option ContractPrecision)
    {lhs : FVec Ideal sl .f32} {rhs : FVec Ideal sr .f32} (hl : AllReal lhs) (hr : AllReal rhs) :
    AllReal (Host.dotGeneral d prec lhs rhs) := fun j => by
  obtain ⟨b, hb⟩ := sum_real (Finset.univ : Finset d.contr.Idx) (fun k => lhs (d.lhsIdx j k) * rhs (d.rhsIdx j k))
    (fun k _ => by
      obtain ⟨x, hx⟩ := hl (d.lhsIdx j k); obtain ⟨y, hy⟩ := hr (d.rhsIdx j k)
      exact ⟨x * y, by rw [hx, hy, EReal.coe_mul]⟩)
  exact ⟨b, by
    show FloatOps.dotGeneral d prec .single lhs rhs j = _
    rw [Ideal.dotGeneral_apply]; exact hb⟩

theorem allNonneg_dotGeneral {sl sr so : Shape} (d : DotDims sl sr so) (prec : Option ContractPrecision)
    {lhs : FVec Ideal sl .f32} {rhs : FVec Ideal sr .f32} (hl : AllNonneg lhs) (hr : AllNonneg rhs) :
    AllNonneg (Host.dotGeneral d prec lhs rhs) := fun j => by
  obtain ⟨b, hb0, hb⟩ := sum_nonneg_real (Finset.univ : Finset d.contr.Idx)
    (fun k => lhs (d.lhsIdx j k) * rhs (d.rhsIdx j k))
    (fun k _ => by
      obtain ⟨x, hx0, hx⟩ := hl (d.lhsIdx j k); obtain ⟨y, hy0, hy⟩ := hr (d.rhsIdx j k)
      exact ⟨x * y, mul_nonneg hx0 hy0, by rw [hx, hy, EReal.coe_mul]⟩)
  exact ⟨b, hb0, by
    show FloatOps.dotGeneral d prec .single lhs rhs j = _
    rw [Ideal.dotGeneral_apply]; exact hb⟩

end Contractions

/-! ## The maximum reduction

A left fold of the maximum from minus infinity (or a real) over a non-empty list of reals is real. -/

section MaxReduce

theorem foldl_max_real {ι : Type} (x : ι → EReal) (hx : ∀ i, ∃ r : ℝ, x i = (r : EReal)) :
    ∀ (L : List ι) (a : EReal), (a = ⊥ ∨ ∃ r : ℝ, a = (r : EReal)) → (L ≠ [] ∨ ∃ r : ℝ, a = (r : EReal)) →
      ∃ r : ℝ, L.foldl (fun r i => max r (x i)) a = (r : EReal)
  | [], a, _, h2 => by
    rcases h2 with h | h
    · exact absurd rfl h
    · exact h
  | i :: L, a, h1, _ => by
    have hreal : ∃ r : ℝ, max a (x i) = (r : EReal) := by
      obtain ⟨y, hy⟩ := hx i
      rcases h1 with h | ⟨z, hz⟩
      · exact ⟨y, by rw [h, hy, max_eq_right bot_le]⟩
      · exact ⟨max z y, by rw [hz, hy, coe_max_real]⟩
    rw [List.foldl_cons]
    exact foldl_max_real x hx L _ (Or.inr hreal) (Or.inr hreal)

/-- The maximum reduction of a real-valued array from minus infinity or a real, every result index reached. -/
theorem allReal_reduce_maximumf {s t u : Shape} {axes : List (Fin s.rank)} {x : FVec Ideal s .f32}
    {init : FVec Ideal u .f32} {h : s.ReducesTo axes t} {hu : 0 < u.numel} (hx : AllReal x)
    (hinit : init (Shape.Idx.first hu) = ⊥ ∨ ∃ r : ℝ, init (Shape.Idx.first hu) = (r : EReal))
    (hne : ∀ j, ∃ i, h.drop i = j) :
    AllReal (Host.reduce FloatOps.maximumf x init h hu) := fun j => by
  rw [Host.reduce_eq_foldl]
  obtain ⟨i0, hi0⟩ := hne j
  exact foldl_max_real x hx _ _ hinit (Or.inl (List.ne_nil_of_mem (List.mem_filter.2
    ⟨List.mem_map.2 ⟨s.rowMajor i0, List.mem_finRange _, Equiv.symm_apply_apply _ _⟩, by simpa using hi0⟩)))

/-- The same from the pattern of minus infinity. -/
theorem allReal_reduce_maximumf_FF800000 {s t u : Shape} {axes : List (Fin s.rank)} {x : FVec Ideal s .f32}
    {h : s.ReducesTo axes t} {hu : 0 < u.numel} (hx : AllReal x) (hne : ∀ j, ∃ i, h.drop i = j) :
    AllReal (Host.reduce FloatOps.maximumf x (constant (F := Ideal) u .f32 0xFF800000#32) h hu) :=
  allReal_reduce_maximumf hx (Or.inl (constant_FF800000 u _)) hne

end MaxReduce

/-! ## Concatenation -/

section Concat

theorem allReal_concatenate (t : Shape) (a : Fin t.rank) (xs : List ((s : Shape) × (s.Idx → EReal)))
    (h : Shape.Concatenates (xs.map (·.1)) t a) (hxs : ∀ p ∈ xs, AllReal p.2) : AllReal (concatenate t a xs h) :=
  fun _ => hxs _ (List.getElem_mem _) _
theorem allPos_concatenate (t : Shape) (a : Fin t.rank) (xs : List ((s : Shape) × (s.Idx → EReal)))
    (h : Shape.Concatenates (xs.map (·.1)) t a) (hxs : ∀ p ∈ xs, AllPos p.2) : AllPos (concatenate t a xs h) :=
  fun _ => hxs _ (List.getElem_mem _) _
theorem allNonneg_concatenate (t : Shape) (a : Fin t.rank) (xs : List ((s : Shape) × (s.Idx → EReal)))
    (h : Shape.Concatenates (xs.map (·.1)) t a) (hxs : ∀ p ∈ xs, AllNonneg p.2) : AllNonneg (concatenate t a xs h) :=
  fun _ => hxs _ (List.getElem_mem _) _

/-- Three pieces. -/
theorem allReal_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllReal x₁) (h₂ : AllReal x₂) (h₃ : AllReal x₃) :
    AllReal (concatenate t a [⟨s₁, x₁⟩, ⟨s₂, x₂⟩, ⟨s₃, x₃⟩] h) :=
  allReal_concatenate t a _ h (by
    intro p hp
    simp only [List.mem_cons, List.not_mem_nil, or_false] at hp
    rcases hp with rfl | rfl | rfl
    · exact h₁
    · exact h₂
    · exact h₃)
theorem allNonneg_concatenate₃ {t : Shape} {a : Fin t.rank} {s₁ s₂ s₃ : Shape} {x₁ : FVec Ideal s₁ .f32}
    {x₂ : FVec Ideal s₂ .f32} {x₃ : FVec Ideal s₃ .f32}
    {h : Shape.Concatenates (([⟨s₁, x₁⟩, ⟨s₂, x₂⟩, ⟨s₃, x₃⟩] : List ((s : Shape) × (s.Idx → EReal))).map (·.1)) t a}
    (h₁ : AllNonneg x₁) (h₂ : AllNonneg x₂) (h₃ : AllNonneg x₃) :
    AllNonneg (concatenate t a [⟨s₁, x₁⟩, ⟨s₂, x₂⟩, ⟨s₃, x₃⟩] h) :=
  allNonneg_concatenate t a _ h (by
    intro p hp
    simp only [List.mem_cons, List.not_mem_nil, or_false] at hp
    rcases hp with rfl | rfl | rfl
    · exact h₁
    · exact h₂
    · exact h₃)

end Concat

end Cert.LibFinite
-- ==== Proof.RefValue.lean ====
/-
  The reference's result, read at an index, on real data.

  The reference scales the query, contracts it with the key over the feature axis to get the scores, takes each
  row's maximum, exponentiates the shifted scores, divides by the row's sum, and contracts the resulting weights
  with the value over the key axis. At a batch `b`, head `h`, feature `d` and query position `i` that is the
  softmax-weighted average of value row `d` under the scores of position `i`, for that (batch, head) slab.
-/
import proofs.«430736_j35820027248841_3_alg».proof.Proof.Gen.ReferenceIdeal.Read
import proofs.«430736_j35820027248841_3_alg».proof.Proof.Softmax
import proofs.«430736_j35820027248841_3_alg».proof.Proof.Slab
import proofs.«430736_j35820027248841_3_alg».proof.Proof.LibFinite
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-! ## The indices the stages read, by coordinates -/

/-- The scaled query is read at feature `d` and the query position. -/
theorem lidx_v2_ix (b : Fin 4) (h : Fin 16) (i j : Fin 2048) (d : Fin 64) :
    lidx_main_v2 (ix4 b h i j) d = ix4 b h d i :=
  funext fun a => Fin.ext (by match a with | ⟨0, _⟩ => rfl | ⟨1, _⟩ => rfl | ⟨2, _⟩ => rfl | ⟨3, _⟩ => rfl)

/-- The key is read at feature `d` and the key position. -/
theorem ridx_v2_ix (b : Fin 4) (h : Fin 16) (i j : Fin 2048) (d : Fin 64) :
    ridx_main_v2 (ix4 b h i j) d = ix4 b h d j :=
  funext fun a => Fin.ext (by match a with | ⟨0, _⟩ => rfl | ⟨1, _⟩ => rfl | ⟨2, _⟩ => rfl | ⟨3, _⟩ => rfl)

/-- The row maximum broadcast back over the key axis is read at the row. -/
theorem idx_v67_ix (b : Fin 4) (h : Fin 16) (i j : Fin 2048) :
    idx_main_v6 (idx_main_v7 (ix4 b h i j)) = ix3 b h i :=
  funext fun a => Fin.ext (by match a with | ⟨0, _⟩ => rfl | ⟨1, _⟩ => rfl | ⟨2, _⟩ => rfl)

/-- The row sum broadcast back over the key axis is read at the row. -/
theorem idx_v1112_ix (b : Fin 4) (h : Fin 16) (i j : Fin 2048) :
    idx_main_v11 (idx_main_v12 (ix4 b h i j)) = ix3 b h i :=
  funext fun a => Fin.ext (by match a with | ⟨0, _⟩ => rfl | ⟨1, _⟩ => rfl | ⟨2, _⟩ => rfl)

/-- The row sum reads the row's entries. -/
theorem idx_v10_ix (b : Fin 4) (h : Fin 16) (i j : Fin 2048) :
    idx_main_v10 (ix3 b h i) j = ix4 b h i j :=
  funext fun a => Fin.ext (by match a with | ⟨0, _⟩ => rfl | ⟨1, _⟩ => rfl | ⟨2, _⟩ => rfl | ⟨3, _⟩ => rfl)

/-- The value is read at feature `d` and the key position. -/
theorem lidx_v14_ix (b : Fin 4) (h : Fin 16) (d : Fin 64) (i j : Fin 2048) :
    lidx_main_v14 (ix4 b h d i) j = ix4 b h d j :=
  funext fun a => Fin.ext (by match a with | ⟨0, _⟩ => rfl | ⟨1, _⟩ => rfl | ⟨2, _⟩ => rfl | ⟨3, _⟩ => rfl)

/-- The weights are read at the query position and the key position. -/
theorem ridx_v14_ix (b : Fin 4) (h : Fin 16) (d : Fin 64) (i j : Fin 2048) :
    ridx_main_v14 (ix4 b h d i) j = ix4 b h i j :=
  funext fun a => Fin.ext (by match a with | ⟨0, _⟩ => rfl | ⟨1, _⟩ => rfl | ⟨2, _⟩ => rfl | ⟨3, _⟩ => rfl)

/-! ## The stages at an index -/

/-- The scores: entry `(i, j)` of the `(b, h)` slab is the scaled query column `i` times the key column `j`. -/
theorem v2_at (c : ℝ) (hc : Ideal.ofBits .f32 0x3E000000#32 = (c : EReal))
    (q k : S4x16x64x2048.Idx → ℝ) (b : Fin 4) (h : Fin 16) (i j : Fin 2048) :
    val_main_v2 (F := Ideal) (fun x => (q x : EReal)) (fun x => (k x : EReal)) (ix4 b h i j)
      = ((Cert.Attn.score c (Cert.Attn.slab q b h) (Cert.Attn.slab k b h) i j : ℝ) : EReal) := by
  rw [val_main_v2_apply]
  simp only [lidx_v2_ix, ridx_v2_ix, val_main_v1_apply, val_main_v0_apply, val_main_cst_apply, Ideal.ofBits_def,
    Ideal.mulf_def, hc]
  exact Cert.Attn.coe_score c (Cert.Attn.slab q b h) (Cert.Attn.slab k b h) i j

/-- The row maxima are real numbers: the scores are finite sums of products of reals, each row has an entry, and a
    maximum with minus infinity changes nothing. -/
theorem allReal_v5 (q k : S4x16x64x2048.Idx → ℝ) :
    Cert.LibFinite.AllReal (val_main_v5 (F := Ideal) (fun x => (q x : EReal)) (fun x => (k x : EReal))) := by
  unfold val_main_v5 val_main_v4 val_main_v3 val_main_cst_1 val_main_cst_0
  refine Cert.LibFinite.allReal_maximumf_bot_left (Cert.LibFinite.broadcast_constant_FF800000 _ _)
    (Cert.LibFinite.allReal_reduce_maximumf_FF800000 ?_ ?_)
  · unfold val_main_v2 val_main_v1 val_main_v0 val_main_cst
    exact Cert.LibFinite.allReal_dotGeneral _ _
      (Cert.LibFinite.allReal_mulf (Cert.LibFinite.allReal_coe q)
        (Cert.LibFinite.allReal_broadcastInDim _ _ (Cert.LibFinite.allReal_constant _ _ (by decide))))
      (Cert.LibFinite.allReal_coe k)
  · exact Cert.LibFinite.drop_surjective_single _ (by decide) (by decide)

/-- The shifted, exponentiated scores, for a row whose maximum is the real `M`. -/
theorem v9_at (c : ℝ) (hc : Ideal.ofBits .f32 0x3E000000#32 = (c : EReal))
    (q k : S4x16x64x2048.Idx → ℝ) (b : Fin 4) (h : Fin 16) (i : Fin 2048) (M : ℝ)
    (hM : val_main_v5 (F := Ideal) (fun x => (q x : EReal)) (fun x => (k x : EReal)) (ix3 b h i) = (M : EReal)) (j : Fin 2048) :
    val_main_v9 (F := Ideal) (fun x => (q x : EReal)) (fun x => (k x : EReal)) (ix4 b h i j)
      = Ideal.exp (((Cert.Attn.score c (Cert.Attn.slab q b h) (Cert.Attn.slab k b h) i j : ℝ) : EReal) - (M : EReal)) := by
  rw [val_main_v9_apply, val_main_v8_apply, val_main_v7_apply, val_main_v6_apply, idx_v67_ix, hM, v2_at c hc]
  simp only [Ideal.hostUnary_exp_def, Ideal.subf_def]

/-- The row's sum of them. -/
theorem v10_at (c : ℝ) (hc : Ideal.ofBits .f32 0x3E000000#32 = (c : EReal))
    (q k : S4x16x64x2048.Idx → ℝ) (b : Fin 4) (h : Fin 16) (i : Fin 2048) (M : ℝ)
    (hM : val_main_v5 (F := Ideal) (fun x => (q x : EReal)) (fun x => (k x : EReal)) (ix3 b h i) = (M : EReal)) :
    val_main_v10 (F := Ideal) (fun x => (q x : EReal)) (fun x => (k x : EReal)) (ix3 b h i)
      = ∑ j : Fin 2048, Ideal.exp (((Cert.Attn.score c (Cert.Attn.slab q b h) (Cert.Attn.slab k b h) i j : ℝ) : EReal) - (M : EReal)) := by
  rw [val_main_v10_apply, val_main_cst_2_apply, Ideal.ofBits_def, Ideal.ofBits_zero_f32, zero_add]
  refine Finset.sum_congr rfl fun j _ => ?_
  rw [idx_v10_ix, v9_at c hc q k b h i M hM j]

/-- The normalised weights. -/
theorem v13_at (c : ℝ) (hc : Ideal.ofBits .f32 0x3E000000#32 = (c : EReal))
    (q k : S4x16x64x2048.Idx → ℝ) (b : Fin 4) (h : Fin 16) (i : Fin 2048) (M : ℝ)
    (hM : val_main_v5 (F := Ideal) (fun x => (q x : EReal)) (fun x => (k x : EReal)) (ix3 b h i) = (M : EReal)) (j : Fin 2048) :
    val_main_v13 (F := Ideal) (fun x => (q x : EReal)) (fun x => (k x : EReal)) (ix4 b h i j)
      = Ideal.div (Ideal.exp (((Cert.Attn.score c (Cert.Attn.slab q b h) (Cert.Attn.slab k b h) i j : ℝ) : EReal) - (M : EReal)))
          (∑ j' : Fin 2048, Ideal.exp (((Cert.Attn.score c (Cert.Attn.slab q b h) (Cert.Attn.slab k b h) i j' : ℝ) : EReal) - (M : EReal))) := by
  rw [val_main_v13_apply, val_main_v12_apply, val_main_v11_apply, idx_v1112_ix, v10_at c hc q k b h i M hM,
    v9_at c hc q k b h i M hM j, Ideal.hostDivf_def]

/-! ## The result -/

/-- On real arguments, with the scale literal the real `c`, the reference's result at `(b, h, d, i)` is the attention
    output of the `(b, h)` slabs at `(d, i)`. -/
theorem ref_at (c : ℝ) (hc : Ideal.ofBits .f32 0x3E000000#32 = (c : EReal))
    (q k v : S4x16x64x2048.Idx → ℝ) (b : Fin 4) (h : Fin 16) (d : Fin 64) (i : Fin 2048) :
    val_main_v14 (F := Ideal) (fun x => (q x : EReal)) (fun x => (k x : EReal)) (fun x => (v x : EReal)) (ix4 b h d i)
      = ((Cert.Attn.attnOut c (Cert.Attn.slab q b h) (Cert.Attn.slab k b h) (Cert.Attn.slab v b h) d i : ℝ) : EReal) := by
  obtain ⟨M, hM⟩ := allReal_v5 q k (ix3 b h i)
  rw [val_main_v14_apply]
  simp only [lidx_v14_ix, ridx_v14_ix, v13_at c hc q k b h i M hM]
  exact Cert.Attn.ref_form (fun j => Cert.Attn.score c (Cert.Attn.slab q b h) (Cert.Attn.slab k b h) i j)
    (fun j => Cert.Attn.slab v b h d j) M

end Cert.ReferenceIdeal.RefValue

end
-- ==== Proof.Finite.lean ====
/-
  The precondition, read: every entry of the query, key and value arrays is a real number.

  At the exact-arithmetic instance an input entry ranges over the extended reals. The precondition tests, entry by
  entry, that the absolute value is strictly below `+∞`, and takes the conjunction over each array and over the three
  arrays. The absolute value of `-∞` and of `+∞` is `+∞`, so an entry that passes is neither.
-/
import proofs.«430736_j35820027248841_3_alg».proof.Pre_finite_inputs
import proofs.«430736_j35820027248841_3_alg».proof.Proof.Gen.Pre_finite_inputs
import Idealize.ShloMosaic.Lib.ReduceAll
import Idealize.ShloMosaic.Lib.Affine
import Idealize.ShloMosaic.Lib.ValueIdx
import Idealize.ShloMosaic.PureOps.Ideal
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- An extended real whose absolute value is strictly below `+∞` is a real number. -/
theorem real_of_abs_lt_top (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.hostAbsf_def, Ideal.cmpf_def, Ideal.absf_def, Ideal.ofBits_def, htop] at h
  induction x using EReal.rec with
  | bot => simp [Ideal.cmp] at h
  | coe r => exact ⟨r, rfl⟩
  | top => simp [Ideal.cmp] at h

variable [Facts]

/-- The precondition says every entry of the three arguments is a real number: each conjunct is an `all` over
    the array of the test `|x| < +∞`. -/
theorem real_of_pre (x0 x1 x2 : FVec Ideal S4x16x64x2048 .f32) (h : fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h ValueIdx.ix0
  dsimp only [fn] at h'
  obtain ⟨h12, h3⟩ := IntOp.andi_eq_one.mp h'
  obtain ⟨h1, h2⟩ := IntOp.andi_eq_one.mp h12
  refine ⟨fun i => ?_, fun i => ?_, fun i => ?_⟩
  · exact real_of_abs_lt_top (x0 i) (Host.reduce_andi_all _ _ _ _ _ h1 i)
  · exact real_of_abs_lt_top (x1 i) (Host.reduce_andi_all _ _ _ _ _ h2 i)
  · exact real_of_abs_lt_top (x2 i) (Host.reduce_andi_all _ _ _ _ _ h3 i)

/-- So each argument is the coercion of a real-valued array. -/
theorem exists_real (x : FVec Ideal S4x16x64x2048 .f32) (hx : ∀ i, ∃ r : ℝ, x i = (r : EReal)) :
    ∃ f : S4x16x64x2048.Idx → ℝ, x = fun i => ((f i : ℝ) : EReal) :=
  ⟨fun i => (hx i).choose, funext fun i => (hx i).choose_spec⟩

end Cert.Pre_finite_inputs.Finite

end
-- ==== Proof.Bridge.lean ====
/-
  The two programs compute one function.

  Under the precondition the three arguments are real-valued, and the scale literal is a real number. The
  kernel's result buffer then holds, at batch `b`, head `h`, feature `d` and position `i`, the attention output of
  the `(b, h)` slabs, and so does the reference's last stage applied to the same arguments: the softmax-weighted
  average of the value row under the scores of position `i`, whichever real number each program shifts the scores
  by before exponentiating.
-/
import proofs.«430736_j35820027248841_3_alg».proof.Defs
import proofs.«430736_j35820027248841_3_alg».proof.Proof.Gen.KernelIdeal.Frame
import proofs.«430736_j35820027248841_3_alg».proof.Proof.Gen.ReferenceIdeal.Read
import proofs.«430736_j35820027248841_3_alg».proof.Proof.Gen.Pre_finite_inputs
import proofs.«430736_j35820027248841_3_alg».proof.Proof.KerFinal
import proofs.«430736_j35820027248841_3_alg».proof.Proof.RefValue
import proofs.«430736_j35820027248841_3_alg».proof.Proof.Finite
import proofs.«430736_j35820027248841_3_alg».proof.Proof.LibFinite

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The kernel's result buffer is the reference's last stage of the same three arguments. -/
theorem kernel_result (c : Dev nD)
    (hpre : Cert.Pre_finite_inputs.fn (F := Ideal) (m ((c : Thread nD τ).loc main_arg0)) (m ((c : Thread nD τ).loc main_arg1))
      (m ((c : Thread nD τ).loc main_arg2)) = fun _ => 1#1) :
    Pipeline.afterTail₀ cfgs (dats m) 0 (V0 m) [hostOps1] c main_v4
      = Cert.ReferenceIdeal.Read.val_main_v14 (F := Ideal) (m ((c : Thread nD τ).loc main_arg0))
          (m ((c : Thread nD τ).loc main_arg1)) (m ((c : Thread nD τ).loc main_arg2)) := by
  obtain ⟨h0, h1, h2⟩ := Cert.Pre_finite_inputs.Finite.real_of_pre _ _ _ hpre
  obtain ⟨q, hq⟩ := Cert.Pre_finite_inputs.Finite.exists_real _ h0
  obtain ⟨k, hk⟩ := Cert.Pre_finite_inputs.Finite.exists_real _ h1
  obtain ⟨v, hv⟩ := Cert.Pre_finite_inputs.Finite.exists_real _ h2
  obtain ⟨c0, hc0⟩ := Cert.LibFinite.ofBits_f32_real 0x3E000000#32 (by decide)
  funext idx
  obtain ⟨b, h, d, i, rfl⟩ : ∃ (b : Fin 4) (h : Fin 16) (d : Fin 64) (i : Fin 2048), idx = ix4 b h d i :=
    ⟨idx 0, idx 1, idx 2, idx 3, eq_ix4 idx⟩
  rw [Cert.KernelIdeal.Final.result_at m c0 hc0 q k v c hq hk hv b h d i, hq, hk, hv]
  exact (Cert.ReferenceIdeal.RefValue.ref_at c0 hc0 q k v b h d i).symm

/-- The kernel's run, with its result buffer named: every weakly fair execution ends with the result at the
    reference's last stage of the arguments, and the arguments as they were. -/
theorem kernel_run (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v4)
          = Cert.ReferenceIdeal.Read.val_main_v14 (F := Ideal) (m ((c.tc : Thread nD τ).loc main_arg0))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v4 (Pipeline.mem_restRefs_of main_v4 (by decide) (by decide))).trans (kernel_result m c (hpre c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.Proof.Bridge

end
-- ==== Proof.lean ====
/-
  A flash-attention kernel against plain softmax attention, over the extended reals.

  For every batch and head the reference forms the scores `s i j = ∑ d, (q d i · 1/8) · k d j`, subtracts each row's
  maximum, exponentiates, normalises each row by its sum and takes `out d i = ∑ j, v d j · w i j`. The kernel visits
  the key positions in two tiles of 1024. At the first tile it keeps the tile's column maxima `m0`, the sums `l0` of
  `e^{s - m0}` and the products `acc0` of the value tile with those exponentials; at the second it takes the larger
  shift `m1`, rescales `l0` and `acc0` by `e^{m0 - m1}`, adds the second tile's sums and products taken at shift `m1`,
  and stores `acc / l`.

  Under the precondition every input is a real number, hence so are all scores and both programs' shifts. A
  softmax-weighted average does not depend on the real shift applied to the scores, and rescaling by `e^{m0 - m1}`
  turns a sum taken at shift `m0` into the same sum at shift `m1`; so both programs leave, at every index, the same
  real number `(∑ j, v d j · e^{s i j}) / (∑ j, e^{s i j})`. Finiteness is used: on the extended reals the
  cancellations above fail at infinities.

  The kernel's value is read off its frame run: the output block each (batch, head) pair writes back is a pure
  function of the query block and the two key and value tiles, the 64 blocks tile the merged array, and the host
  splits the merged axis back. The reference's value is its run read one stage at a time. The idealization
  rewrote nothing, so there is nothing to preserve.
-/
import proofs.«430736_j35820027248841_3_alg».proof.Defs
import proofs.«430736_j35820027248841_3_alg».proof.Proof.Gen.Kernel
import proofs.«430736_j35820027248841_3_alg».proof.Proof.Gen.Kernel.Skeleton
import proofs.«430736_j35820027248841_3_alg».proof.Proof.Gen.Kernel.Launch
import proofs.«430736_j35820027248841_3_alg».proof.Proof.Gen.Kernel.Points
import proofs.«430736_j35820027248841_3_alg».proof.Proof.Gen.Kernel.Frame
import proofs.«430736_j35820027248841_3_alg».proof.Proof.Gen.KernelIdeal
import proofs.«430736_j35820027248841_3_alg».proof.Proof.Gen.KernelIdeal.Skeleton
import proofs.«430736_j35820027248841_3_alg».proof.Proof.Gen.KernelIdeal.Launch
import proofs.«430736_j35820027248841_3_alg».proof.Proof.Gen.KernelIdeal.Points
import proofs.«430736_j35820027248841_3_alg».proof.Proof.Gen.KernelIdeal.Frame
import proofs.«430736_j35820027248841_3_alg».proof.Proof.Gen.ReferenceIdeal
import proofs.«430736_j35820027248841_3_alg».proof.Proof.Gen.Pre_finite_inputs
import proofs.«430736_j35820027248841_3_alg».proof.Proof.Gen.ReferenceIdeal.Run
import proofs.«430736_j35820027248841_3_alg».proof.Proof.Gen.ReferenceIdeal.Read
import proofs.«430736_j35820027248841_3_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernel_ideal :
    Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_reference :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the same result: the reference's last stage of
    the kernel's arguments, which the kernel's result buffer holds under the precondition and the reference's holds
    because its arguments are those. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨_, Cert.Proof.Bridge.kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
